-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000x128 : Shape := ⟨2, ![1600000, 128]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S1600000x128 : S_.BroadcastsInDim S1600000x128 (![] : Fin 0 → Fin S1600000x128.rank)
  reducesTo_S1600000x128_S_d0_1 : S1600000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : IVec S2x1600000 32) (main_arg1 : FVec F S1600000x128 .f32) (main_arg2 : IVec S50000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S1600000x128 .f32 := Host.absf main_arg1
  let main_cst : FVec F S_ .f32 := constant S_ .f32 0x7F800000#32
  let main_v1 : FVec F S1600000x128 .f32 := broadcastInDim S1600000x128 ![] bcast_S_S1600000x128 main_cst
  let main_v2 : IVec S1600000x128 1 := cmpf .olt main_v0 main_v1
  let main_c : IVec S_ 1 := constantI S_ 1 1#1
  let main_v3 : IVec S_ 1 := (fun x v => Host.reduce IntOp.andi x v reducesTo_S1600000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S2x1600000 : Shape := ⟨2, ![2, 1600000]⟩
abbrev S1600000x128 : Shape := ⟨2, ![1600000, 128]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S2x800000x128 : Shape := ⟨3, ![2, 800000, 128]⟩
abbrev S2x800000x1 : Shape := ⟨3, ![2, 800000, 1]⟩
abbrev S2x64x256 : Shape := ⟨3, ![2, 64, 256]⟩
abbrev S1x6400x128 : Shape := ⟨3, ![1, 6400, 128]⟩
abbrev S1x6400x1 : Shape := ⟨3, ![1, 6400, 1]⟩
abbrev S1x64x256 : Shape := ⟨3, ![1, 64, 256]⟩
abbrev S64x256 : Shape := ⟨2, ![64, 256]⟩
abbrev S6400x128 : Shape := ⟨2, ![6400, 128]⟩
abbrev S1x128 : Shape := ⟨2, ![1, 128]⟩
abbrev S6400x1 : Shape := ⟨2, ![6400, 1]⟩
abbrev S6400x64 : Shape := ⟨2, ![6400, 64]⟩
abbrev S64x128 : Shape := ⟨2, ![64, 128]⟩
abbrev S1x64x128 : Shape := ⟨3, ![1, 64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 35
  | .vmem => 14
  | .smem => 0
  | _ => 0

abbrev bufTy : (tb : Table) → Fin (tcTables nBuf tb) → BufTy
  | .hbm, ⟨0, _⟩ => ⟨S2x1600000, .i32⟩
  | .hbm, ⟨1, _⟩ => ⟨S1600000x128, .f32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000, .i32⟩
  | .hbm, ⟨20, _⟩ => ⟨S2x800000x128, .f32⟩
  | .hbm, ⟨21, _⟩ => ⟨S2x800000x1, .i32⟩
  | .hbm, ⟨22, _⟩ => ⟨S2x64x256, .f32⟩
  | .hbm, ⟨23, _⟩ => ⟨S_, .f32⟩
  | .hbm, ⟨24, _⟩ => ⟨S64x256, .f32⟩
  | .hbm, ⟨25, _⟩ => ⟨S64x128, .f32⟩
  | .hbm, ⟨26, _⟩ => ⟨S64x1, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64x1, .f32⟩
  | .hbm, ⟨32, _⟩ => ⟨S64x128, .f32⟩
  | .hbm, ⟨33, _⟩ => ⟨S64x128, .f32⟩
  | .hbm, ⟨34, _⟩ => ⟨S64x64, .f32⟩
  | .local _ .vmem, ⟨0, _⟩ => ⟨S1x6400x128, .f32⟩
  | .local _ .vmem, ⟨1, _⟩ => ⟨S1x6400x128, .f32⟩
  | .local _ .vmem, ⟨2, _⟩ => ⟨S1x6400x1, .i32⟩
  | .local _ .vmem, ⟨3, _⟩ => ⟨S1x6400x1, .i32⟩
  | .local _ .vmem, ⟨4, _⟩ => ⟨S128x128, .f32⟩
  | .local _ .vmem, ⟨5, _⟩ => ⟨S128, .f32⟩
  | .local _ .vmem, ⟨6, _⟩ => ⟨S1x64x256, .f32⟩
  | .local _ .vmem, ⟨7, _⟩ => ⟨S1x64x256, .f32⟩
  | .local _ .vmem, ⟨8, _⟩ => ⟨S64x128, .f32⟩
  | .local _ .vmem, ⟨9, _⟩ => ⟨S128x128, .f32⟩
  | .local _ .vmem, ⟨10, _⟩ => ⟨S128, .f32⟩
  | .local _ .vmem, ⟨11, _⟩ => ⟨S128x64, .f32⟩
  | .local _ .vmem, ⟨12, _⟩ => ⟨S64, .f32⟩
  | .local _ .vmem, ⟨13, _⟩ => ⟨S64x64, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![2, 125], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S1600000x128_S2x800000x128 : S1600000x128.ShapeCasts S2x800000x128
  shapeCasts_S1600000_S2x800000x1 : S1600000.ShapeCasts S2x800000x1
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x6400x128_S1x6400x128_0_0_0 : ∀ a, (![0, 0, 0] : Fin 3 → Nat) a + S1x6400x128.size a ≤ S1x6400x128.size a
  h_S1x6400x128 : 0 < S1x6400x128.numel
  shapeCasts_S1x6400x128_S6400x128 : S1x6400x128.ShapeCasts S6400x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S1x6400x1_S1x6400x1_0_0_0 : ∀ a, (![0, 0, 0] : Fin 3 → Nat) a + S1x6400x1.size a ≤ S1x6400x1.size a
  h_S1x6400x1 : 0 < S1x6400x1.numel
  shapeCasts_S1x6400x1_S6400x1 : S1x6400x1.ShapeCasts S6400x1
  iota_S6400x64_d1_w32 : S6400x64.Iotas .tc 32 [1]
  broadcasts_S6400x1_S6400x64 : S6400x1.Broadcasts S6400x64
  natLt_1_32 : 1 < 32
  inb_S1x64x256_S1x64x128_0_0_0 : ∀ a, (![0, 0, 0] : Fin 3 → Nat) a + S1x64x128.size a ≤ S1x64x256.size a
  h_S1x64x128 : 0 < S1x64x128.numel
  shapeCasts_S1x64x128_S64x128 : S1x64x128.ShapeCasts S64x128
  shapeCasts_S64x128_S1x64x128 : S64x128.ShapeCasts S1x64x128
  inb_S1x64x256_S1x64x128_0_0_128 : ∀ a, (![0, 0, 128] : Fin 3 → Nat) a + S1x64x128.size a ≤ S1x64x256.size a
  reducesTo_S2x64x256_S64x256_d0 : S2x64x256.ReducesTo [0] S64x256
  h_S_ : 0 < S_.numel
  slices_S64x256_S64x128_0_0 : S64x256.Slices ![0, 0] S64x128
  slices_S64x256_S64x1_0_128 : S64x256.Slices ![0, 128] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  broadcasts_S1x128_S64x128 : S1x128.Broadcasts S64x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S64x64 : S1x64.Broadcasts S64x64
  inb_S64x64_S64x64_0_0 : ∀ a, (![0, 0] : Fin 2 → Nat) a + S64x64.size a ≤ S64x64.size a
  h_S64x64 : 0 < S64x64.numel
  gather_S50000_S1600000x1_S1600000_n_0_n_n_0_1_1_wf : GatherDims.WF S50000 S1600000x1 S1600000 [] [0] [] [0] [] 1 ![1]
  dot_S6400x128_S128x128_S6400x128_1_0_0_1_n_n_wf : DotDims.WF S6400x128 S128x128 S6400x128 [1] [0] [0] [1] [] []
  dot_S6400x64_S6400x128_S64x128_0_0_1_1_n_n_wf : DotDims.WF S6400x64 S6400x128 S64x128 [0] [0] [1] [1] [] []
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x6400x128.size a ≤ S2x800000x128.size a
  hwx0_0 : ∀ i : grid0.Coords, EltTy.bits .f32 = 32 ∨ (Rect.block (s := S2x800000x128) S1x6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6400x1.size a ≤ S2x800000x1.size a
  hwx0_1 : ∀ i : grid0.Coords, EltTy.bits .i32 = 32 ∨ (Rect.block (s := S2x800000x1) S1x6400x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S2x64x256.size a
  hwx0_4 : ∀ i : grid0.Coords, EltTy.bits .f32 = 32 ∨ (Rect.block (s := S2x64x256) S1x64x256.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x128.size a
  hwx1_0 : ∀ i : grid1.Coords, EltTy.bits .f32 = 32 ∨ (Rect.block (s := S64x128) S64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)

variable [Facts₀]

def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x64_S6400x128_S64x128_0_0_1_1_n_n : DotDims S6400x64 S6400x128 S64x128 where
  lhsContracting := [0]
  rhsContracting := [0]
  lhsNonContracting := [1]
  rhsNonContracting := [1]
  lhsBatch := []
  rhsBatch := []
  wf := dot_S6400x64_S6400x128_S64x128_0_0_1_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

abbrev win0_0 : Pipeline.Window sig grid0 :=
  Pipeline.Window.ofSpec (Memref.whole main_v9) S1x6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v20) S64x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S64x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2x1600000 : Shape := ⟨2, ![2, 1600000]⟩
abbrev S1600000x128 : Shape := ⟨2, ![1600000, 128]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S2x1600000, .i32⟩
  | .hbm, ⟨1, _⟩ => ⟨S1600000x128, .f32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1600000x128, .f32⟩
  | .hbm, ⟨10, _⟩ => ⟨S1x128, .f32⟩
  | .hbm, ⟨11, _⟩ => ⟨S1600000x128, .f32⟩
  | .hbm, ⟨12, _⟩ => ⟨S1600000x128, .f32⟩
  | .hbm, ⟨13, _⟩ => ⟨S_, .f32⟩
  | .hbm, ⟨14, _⟩ => ⟨S1600000x128, .f32⟩
  | .hbm, ⟨15, _⟩ => ⟨S1600000x128, .f32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000, .i32⟩
  | .hbm, ⟨27, _⟩ => ⟨S_, .f32⟩
  | .hbm, ⟨28, _⟩ => ⟨S64x128, .f32⟩
  | .hbm, ⟨29, _⟩ => ⟨S1600000x1, .i32⟩
  | .hbm, ⟨30, _⟩ => ⟨S64x128, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S64, .f32⟩
  | .hbm, ⟨35, _⟩ => ⟨S1600000x1, .i32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S64x1, .f32⟩
  | .hbm, ⟨41, _⟩ => ⟨S64x128, .f32⟩
  | .hbm, ⟨42, _⟩ => ⟨S64x128, .f32⟩
  | .hbm, ⟨43, _⟩ => ⟨S64x128, .f32⟩
  | .hbm, ⟨44, _⟩ => ⟨S1x128, .f32⟩
  | .hbm, ⟨45, _⟩ => ⟨S64x128, .f32⟩
  | .hbm, ⟨46, _⟩ => ⟨S64x128, .f32⟩
  | .hbm, ⟨47, _⟩ => ⟨S_, .f32⟩
  | .hbm, ⟨48, _⟩ => ⟨S64x128, .f32⟩
  | .hbm, ⟨49, _⟩ => ⟨S64x128, .f32⟩
  | .hbm, ⟨50, _⟩ => ⟨S64x64, .f32⟩
  | .hbm, ⟨51, _⟩ => ⟨S1x64, .f32⟩
  | .hbm, ⟨52, _⟩ => ⟨S64x64, .f32⟩
  | .hbm, ⟨53, _⟩ => ⟨S64x64, .f32⟩
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_cst_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  dot_S1600000x128_S128x128_S1600000x128_1_0_0_1_n_n_wf : DotDims.WF S1600000x128 S128x128 S1600000x128 [1] [0] [0] [1] [] []
  gather_S50000_S1600000x1_S1600000_n_0_n_n_0_1_1_wf : GatherDims.WF S50000 S1600000x1 S1600000 [] [0] [] [0] [] 1 ![1]
  scatter_S64x128_S1600000x1_S1600000x128_1_0_0_1_wf : ScatterDims.WF S64x128 S1600000x1 S1600000x128 [1] [0] [0] 1
  scatter_S64_S1600000x1_S1600000_n_0_0_1_wf : ScatterDims.WF S64 S1600000x1 S1600000 [] [0] [0] 1
  dot_S64x128_S128x128_S64x128_1_0_0_1_n_n_wf : DotDims.WF S64x128 S128x128 S64x128 [1] [0] [0] [1] [] []
  dot_S64x128_S128x64_S64x64_1_0_0_1_n_n_wf : DotDims.WF S64x128 S128x64 S64x64 [1] [0] [0] [1] [] []

variable [Facts₀]

def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S64x128_S1600000x1_S1600000x128_1_0_0_1 : ScatterDims S64x128 S1600000x1 S1600000x128 where
  updateWindowDims := [1]
  insertedWindowDims := [0]
  scatterDimsToOperandDims := [0]
  indexVectorDim := 1
  wf := scatter_S64x128_S1600000x1_S1600000x128_1_0_0_1_wf
def scatter_S64_S1600000x1_S1600000_n_0_0_1 : ScatterDims S64 S1600000x1 S1600000 where
  updateWindowDims := []
  insertedWindowDims := [0]
  scatterDimsToOperandDims := [0]
  indexVectorDim := 1
  wf := scatter_S64_S1600000x1_S1600000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf

class Facts : Prop extends Facts₀ where

variable [Facts]
-- ==== Proof.Names.lean ====
/-
  Region 0's result array by a name of its literal type: row p is partition p's accumulator, 64 graphs by 256 columns.
-/
import proofs.«420980_j10582799417476_1_alg».proof.Proof.Gen.KernelIdeal.Frame
import Idealize.ShloMosaic.PureOps.Ideal

noncomputable section

namespace Cert.KernelIdeal.EdgeValue

open Idealize.ShloMosaic Idealize.ShloMosaic.TcCoe Idealize.SL.Sem Cert.KernelIdeal Cert.KernelIdeal.Gen

/-- What region 0 leaves in its result array, when entered with the contents `V`. -/
abbrev partAcc (V : (c : Dev nD) → (b : Ref sig .tc) → Buf (Elt Ideal) ((c : Thread nD τ).loc b)) (c : Dev nD) :
    Vec Ideal S2x64x256 .f32 :=
  (dat0 (F := Ideal) V c).arrAt 4 cfg0.N

/-- The grid point of block b of partition p: the grid is walked partition by partition, 125 blocks each. -/
def pt (p : Fin 2) (b : Fin 125) : Fin cfg0.N :=
  ⟨p.val * 125 + b.val, by have := p.isLt; have := b.isLt; rw [show cfg0.N = 250 from N_0]; omega⟩

theorem pt_val (p : Fin 2) (b : Fin 125) : (pt p b).val = p.val * 125 + b.val := rfl

end Cert.KernelIdeal.EdgeValue

end
-- ==== Proof.Spec.lean ====
/-
  The mathematics both programs compute, stated once over plain index functions on the extended reals.

  Every edge e carries a feature row x e (128 numbers) and a graph id word eb e.  Its hidden row is
  relu (x e · W + bias).  Graph g's accumulator row has 256 columns: column j < 128 collects the hidden feature j of
  the edges whose id is g, and every column ≥ 128 collects the number of such edges.  The pooled row of g is the
  feature sums divided by max (count, 1), and the result is a two-layer perceptron of the pooled rows.
-/
import Idealize.ShloMosaic.PureOps.Ideal
import Idealize.ShloMosaic.Lib.ValueIdx

noncomputable section

namespace EdgeReadout

open Idealize.ShloMosaic

/-- The float patterns the two programs spell, as the extended reals they denote. -/
theorem zero_f32 : Ideal.ofBits .f32 0x00000000#32 = 0 := by
  simp [Ideal.ofBits, Ideal.ieee]
theorem one_f32 : Ideal.ofBits .f32 0x3F800000#32 = 1 := by
  simp [Ideal.ofBits, Ideal.ieee, -EReal.coe_mul]; norm_num
theorem one_bf16 : Ideal.ofBits .bf16 0x3F80#16 = 1 := by
  simp [Ideal.ofBits, Ideal.ieee, -EReal.coe_mul]; norm_num

/-- Membership of an edge with id word `b` in graph `g`: 1 or 0. -/
def ind (b : BitVec 32) (g : Fin 64) : EReal := if b = BitVec.ofNat 32 g.val then 1 else 0

/-- One hidden feature of a row: relu (x · W + bias) at column j. -/
def hid (x : Fin 128 → EReal) (w : Fin 128 → Fin 128 → EReal) (bias : Fin 128 → EReal) (j : Fin 128) : EReal :=
  max (∑ k : Fin 128, x k * w k j + bias j) 0

/-- What one edge adds to column `col` of graph g's accumulator row. -/
def edgeTerm (b : BitVec 32) (x : Fin 128 → EReal) (w : Fin 128 → Fin 128 → EReal) (bias : Fin 128 → EReal)
    (g : Fin 64) (col : Fin 256) : EReal :=
  ind b g * (if h : col.val < 128 then hid x w bias ⟨col.val, h⟩ else 1)

/-- Graph g's accumulator row over all N edges. -/
def acc {N : Nat} (eb : Fin N → BitVec 32) (x : Fin N → Fin 128 → EReal) (w : Fin 128 → Fin 128 → EReal)
    (bias : Fin 128 → EReal) (g : Fin 64) (col : Fin 256) : EReal :=
  ∑ e : Fin N, edgeTerm (eb e) (x e) w bias g col

/-- The pooled (mean) feature j of graph g, from an accumulator. -/
def pooled (a : Fin 64 → Fin 256 → EReal) (g : Fin 64) (j : Fin 128) : EReal :=
  Ideal.div (a g ⟨j.val, by omega⟩) (max (a g ⟨128, by omega⟩) 1)

/-- The two-layer perceptron on the pooled rows. -/
def mlp (gf : Fin 64 → Fin 128 → EReal) (w2 : Fin 128 → Fin 128 → EReal) (b2 : Fin 128 → EReal)
    (w3 : Fin 128 → Fin 64 → EReal) (b3 : Fin 64 → EReal) (g : Fin 64) (o : Fin 64) : EReal :=
  ∑ k : Fin 128, max (∑ k' : Fin 128, gf g k' * w2 k' k + b2 k) 0 * w3 k o + b3 o

/-- Row r of block b of a partition, among the partition's 800000 rows. -/
def blockRow (b : Fin 125) (r : Fin 6400) : Fin 800000 := ⟨b.val * 6400 + r.val, by have := b.isLt; have := r.isLt; omega⟩

/-- Row e of partition p, among all 1600000 edges. -/
def partRow (p : Fin 2) (e : Fin 800000) : Fin 1600000 := ⟨p.val * 800000 + e.val, by have := p.isLt; have := e.isLt; omega⟩

end EdgeReadout

end
-- ==== Proof.Payloads.lean ====
/-
  The bodies' arithmetic read at an index, at the ideal instance.

  Region 0's body adds to the accumulator block of its partition: in the left half (columns < 128), for graph g and
  feature j, the sum over the block's 6400 edge rows of [row's id = g] · relu (row · W1 + b1) j — the one-hot matrix
  transposed times the hidden block —, and in the right half the same sum with 1 in place of the hidden feature: the
  number of the block's rows whose id is g.  Region 1's body is the perceptron on the pooled rows.
-/
import proofs.«420980_j10582799417476_1_alg».proof.Proof.Spec
import proofs.«420980_j10582799417476_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.EdgeValue

open Idealize.ShloMosaic Idealize.ShloMosaic.ValueIdx Cert.KernelIdeal Cert.KernelIdeal.Gen

/-! ## The one-hot matrix -/

/-- The widened equality bit of two words, read as a signed integer and then as an extended real, is 1 where the
    words agree and 0 elsewhere. -/
theorem eqWord_toReal (b c : BitVec 32) :
    ((((IntOp.cmpi .eq b c).setWidth 32).toInt : ℝ) : EReal) = if b = c then 1 else 0 := by
  by_cases h : b = c
  · subst h
    rw [if_pos rfl]
    have e : IntOp.cmpi .eq b b = 1#1 := by simp [IntOp.cmpi]
    rw [e]
    have : ((1#1 : BitVec 1).setWidth 32).toInt = 1 := by decide
    rw [this]; norm_num
  · rw [if_neg h]
    have hb : (b == c) = false := by simp [h]
    have e : IntOp.cmpi .eq b c = 0#1 := by simp [IntOp.cmpi, hb]
    rw [e]
    have : ((0#1 : BitVec 1).setWidth 32).toInt = 0 := by decide
    rw [this]; norm_num

/-- A column of ids broadcast along the graphs reads, at (r, g), row r's id. -/
theorem idsBroadcast_apply (v16 : Vec Ideal S1x6400x1 .i32) (r : Fin 6400) (g : Fin 64) :
    broadcastTo S6400x64 (shapeCast S6400x1 v16 shapeCasts_S1x6400x1_S6400x1) broadcasts_S6400x1_S6400x64 (ix2 r g)
      = v16 (ix3 0 r 0) := by
  rw [broadcastTo_apply _ broadcasts_S6400x1_S6400x64 (ix2 r g) (ix2 r (0 : Fin 1)) (fun a => match a with
    | ⟨0, _⟩ => by show r.val = if (6400 : Nat) = 1 then 0 else r.val; rw [if_neg (by decide)]
    | ⟨1, _⟩ => by show 0 = if (1 : Nat) = 1 then 0 else g.val; rw [if_pos rfl])]
  exact shapeCast_1ab_ab_apply v16 shapeCasts_S1x6400x1_S6400x1 r 0

/-- The one-hot entry (r, g): 1 where row r's id is the word g, 0 elsewhere. -/
theorem onehot_apply (v16 : Vec Ideal S1x6400x1 .i32) (r : Fin 6400) (g : Fin 64) :
    k0_pay3 (F := Ideal) v16 (ix2 r g) = EdgeReadout.ind (v16 (ix3 0 r 0)) g := by
  unfold k0_pay3
  rw [truncf_apply, sitofp_apply, extui_apply]
  show ((((IntOp.cmpi .eq (broadcastTo S6400x64 (shapeCast S6400x1 v16 shapeCasts_S1x6400x1_S6400x1) broadcasts_S6400x1_S6400x64 (ix2 r g))
    (iota .tc S6400x64 32 [1] iota_S6400x64_d1_w32 (ix2 r g))).setWidth 32).toInt : ℝ) : EReal) = _
  rw [iota_single_apply, idsBroadcast_apply, eqWord_toReal]
  rfl

/-! ## The rows-by-weights product of region 0: which operand entries meet at a result entry -/
theorem lhs_hidden_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
theorem lhs_hidden_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
theorem rhs_hidden_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
theorem rhs_hidden_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl
/-- A block's rows times the first weights: entry (p, q) is the row p against column q. -/
theorem hidden_apply (lhs : FVec Ideal S6400x128 .bf16) (rhs : FVec Ideal S128x128 .bf16) (p : Fin 6400) (q : Fin 128) :
    matmul dot_S6400x128_S128x128_S6400x128_1_0_0_1_n_n none lhs rhs (constant (F := Ideal) S6400x128 .f32 0x00000000#32) (ix2 p q)
      = ∑ k : Fin 128, lhs (ix2 p k) * rhs (ix2 k q) := by
  show FloatOps.matmul dot_S6400x128_S128x128_S6400x128_1_0_0_1_n_n none lhs rhs (constant (F := Ideal) S6400x128 .f32 0x00000000#32) (ix2 p q) = _
  rw [Ideal.matmul_constant_zero_apply, ← Equiv.sum_comp (ValueIdx.contrEquiv1 dot_S6400x128_S128x128_S6400x128_1_0_0_1_n_n 128 rfl rfl).symm]
  refine Finset.sum_congr rfl fun k _ => ?_
  have hk := ValueIdx.contrEquiv1_symm_val dot_S6400x128_S128x128_S6400x128_1_0_0_1_n_n 128 rfl rfl k
  have el : dot_S6400x128_S128x128_S6400x128_1_0_0_1_n_n.lhsIdx (ix2 p q) ((ValueIdx.contrEquiv1 dot_S6400x128_S128x128_S6400x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S6400x128_S128x128_S6400x128_1_0_0_1_n_n.rhsIdx (ix2 p q) ((ValueIdx.contrEquiv1 dot_S6400x128_S128x128_S6400x128_1_0_0_1_n_n 128 rfl rfl).symm k) = ix2 k q := funext fun a => Fin.ext (by
    match a with
    | ⟨0, _⟩ => exact (rhs_hidden_0 _ _).trans hk
    | ⟨1, _⟩ => exact rhs_hidden_1 _ _)
  rw [el, er]

/-! ## The one-hot matrix transposed times a block: both operands are contracted along their rows -/
theorem lhs_scatter_0 (i : S64x128.Idx) (q : dot_S6400x64_S6400x128_S64x128_0_0_1_1_n_n.contr.Idx) :
    (dot_S6400x64_S6400x128_S64x128_0_0_1_1_n_n.lhsIdx i q 0).val = (q ⟨0, by decide⟩).val :=
  dot_S6400x64_S6400x128_S64x128_0_0_1_1_n_n.lhsIdx_val_of_single rfl i q
theorem lhs_scatter_1 (i : S64x128.Idx) (q : dot_S6400x64_S6400x128_S64x128_0_0_1_1_n_n.contr.Idx) :
    (dot_S6400x64_S6400x128_S64x128_0_0_1_1_n_n.lhsIdx i q 1).val = (i 0).val := by
  unfold DotDims.lhsIdx
  rw [dif_neg (show ¬(1 : Fin S6400x64.rank) ∈ dot_S6400x64_S6400x128_S64x128_0_0_1_1_n_n.lhsBatch by decide), dif_pos (show (1 : Fin S6400x64.rank) ∈ dot_S6400x64_S6400x128_S64x128_0_0_1_1_n_n.lhsNonContracting by decide)]
  rfl
theorem rhs_scatter_0 (i : S64x128.Idx) (q : dot_S6400x64_S6400x128_S64x128_0_0_1_1_n_n.contr.Idx) :
    (dot_S6400x64_S6400x128_S64x128_0_0_1_1_n_n.rhsIdx i q 0).val = (q ⟨0, by decide⟩).val :=
  dot_S6400x64_S6400x128_S64x128_0_0_1_1_n_n.rhsIdx_val_of_single rfl i q
theorem rhs_scatter_1 (i : S64x128.Idx) (q : dot_S6400x64_S6400x128_S64x128_0_0_1_1_n_n.contr.Idx) :
    (dot_S6400x64_S6400x128_S64x128_0_0_1_1_n_n.rhsIdx i q 1).val = (i 1).val := by
  unfold DotDims.rhsIdx
  rw [dif_neg (show ¬(1 : Fin S6400x128.rank) ∈ dot_S6400x64_S6400x128_S64x128_0_0_1_1_n_n.rhsBatch by decide), dif_pos (show (1 : Fin S6400x128.rank) ∈ dot_S6400x64_S6400x128_S64x128_0_0_1_1_n_n.rhsNonContracting by decide)]
  rfl
/-- Entry (p, q) sums, over the block's rows k, the left operand's column p times the right operand's column q. -/
theorem scatter_apply (lhs : FVec Ideal S6400x64 .bf16) (rhs : FVec Ideal S6400x128 .bf16) (p : Fin 64) (q : Fin 128) :
    matmul dot_S6400x64_S6400x128_S64x128_0_0_1_1_n_n none lhs rhs (constant (F := Ideal) S64x128 .f32 0x00000000#32) (ix2 p q)
      = ∑ k : Fin 6400, lhs (ix2 k p) * rhs (ix2 k q) := by
  show FloatOps.matmul dot_S6400x64_S6400x128_S64x128_0_0_1_1_n_n none lhs rhs (constant (F := Ideal) S64x128 .f32 0x00000000#32) (ix2 p q) = _
  rw [Ideal.matmul_constant_zero_apply, ← Equiv.sum_comp (ValueIdx.contrEquiv1 dot_S6400x64_S6400x128_S64x128_0_0_1_1_n_n 6400 rfl rfl).symm]
  refine Finset.sum_congr rfl fun k _ => ?_
  have hk := ValueIdx.contrEquiv1_symm_val dot_S6400x64_S6400x128_S64x128_0_0_1_1_n_n 6400 rfl rfl k
  have el : dot_S6400x64_S6400x128_S64x128_0_0_1_1_n_n.lhsIdx (ix2 p q) ((ValueIdx.contrEquiv1 dot_S6400x64_S6400x128_S64x128_0_0_1_1_n_n 6400 rfl rfl).symm k) = ix2 k p := funext fun a => Fin.ext (by
    match a with
    | ⟨0, _⟩ => exact (lhs_scatter_0 _ _).trans hk
    | ⟨1, _⟩ => exact lhs_scatter_1 _ _)
  have er : dot_S6400x64_S6400x128_S64x128_0_0_1_1_n_n.rhsIdx (ix2 p q) ((ValueIdx.contrEquiv1 dot_S6400x64_S6400x128_S64x128_0_0_1_1_n_n 6400 rfl rfl).symm k) = ix2 k q := funext fun a => Fin.ext (by
    match a with
    | ⟨0, _⟩ => exact (rhs_scatter_0 _ _).trans hk
    | ⟨1, _⟩ => exact rhs_scatter_1 _ _)
  rw [el, er]

/-! ## The first layer's product of region 1 -/
theorem lhs_layer1_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_layer1_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_layer1_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_layer1_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl
/-- The pooled rows times the second weights: entry (p, q) is row p against column q. -/
theorem layer1_apply (lhs : FVec Ideal S64x128 .bf16) (rhs : FVec Ideal S128x128 .bf16) (p : Fin 64) (q : Fin 128) :
    matmul dot_S64x128_S128x128_S64x128_1_0_0_1_n_n none lhs rhs (constant (F := Ideal) S64x128 .f32 0x00000000#32) (ix2 p q)
      = ∑ k : Fin 128, lhs (ix2 p k) * rhs (ix2 k q) := by
  show FloatOps.matmul dot_S64x128_S128x128_S64x128_1_0_0_1_n_n none lhs rhs (constant (F := Ideal) S64x128 .f32 0x00000000#32) (ix2 p q) = _
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 p q) ((ValueIdx.contrEquiv1 dot_S64x128_S128x128_S64x128_1_0_0_1_n_n 128 rfl rfl).symm k) = ix2 p k := funext fun a => Fin.ext (by
    match a with
    | ⟨0, _⟩ => exact lhs_layer1_0 _ _
    | ⟨1, _⟩ => exact (lhs_layer1_1 _ _).trans hk)
  have er : dot_S64x128_S128x128_S64x128_1_0_0_1_n_n.rhsIdx (ix2 p q) ((ValueIdx.contrEquiv1 dot_S64x128_S128x128_S64x128_1_0_0_1_n_n 128 rfl rfl).symm k) = ix2 k q := funext fun a => Fin.ext (by
    match a with
    | ⟨0, _⟩ => exact (rhs_layer1_0 _ _).trans hk
    | ⟨1, _⟩ => exact rhs_layer1_1 _ _)
  rw [el, er]

/-! ## The second layer's product of region 1 -/
theorem lhs_layer2_0 (i : S64x64.Idx) (q : dot_S64x128_S128x64_S64x64_1_0_0_1_n_n.contr.Idx) :
    (dot_S64x128_S128x64_S64x64_1_0_0_1_n_n.lhsIdx i q 0).val = (i 0).val := by
  unfold DotDims.lhsIdx
  rw [dif_neg (show ¬(0 : Fin S64x128.rank) ∈ dot_S64x128_S128x64_S64x64_1_0_0_1_n_n.lhsBatch by decide), dif_pos (show (0 : Fin S64x128.rank) ∈ dot_S64x128_S128x64_S64x64_1_0_0_1_n_n.lhsNonContracting by decide)]
  rfl
theorem lhs_layer2_1 (i : S64x64.Idx) (q : dot_S64x128_S128x64_S64x64_1_0_0_1_n_n.contr.Idx) :
    (dot_S64x128_S128x64_S64x64_1_0_0_1_n_n.lhsIdx i q 1).val = (q ⟨0, by decide⟩).val :=
  dot_S64x128_S128x64_S64x64_1_0_0_1_n_n.lhsIdx_val_of_single rfl i q
theorem rhs_layer2_0 (i : S64x64.Idx) (q : dot_S64x128_S128x64_S64x64_1_0_0_1_n_n.contr.Idx) :
    (dot_S64x128_S128x64_S64x64_1_0_0_1_n_n.rhsIdx i q 0).val = (q ⟨0, by decide⟩).val :=
  dot_S64x128_S128x64_S64x64_1_0_0_1_n_n.rhsIdx_val_of_single rfl i q
theorem rhs_layer2_1 (i : S64x64.Idx) (q : dot_S64x128_S128x64_S64x64_1_0_0_1_n_n.contr.Idx) :
    (dot_S64x128_S128x64_S64x64_1_0_0_1_n_n.rhsIdx i q 1).val = (i 1).val := by
  unfold DotDims.rhsIdx
  rw [dif_neg (show ¬(1 : Fin S128x64.rank) ∈ dot_S64x128_S128x64_S64x64_1_0_0_1_n_n.rhsBatch by decide), dif_pos (show (1 : Fin S128x64.rank) ∈ dot_S64x128_S128x64_S64x64_1_0_0_1_n_n.rhsNonContracting by decide)]
  rfl
/-- The hidden rows times the third weights: entry (p, q) is row p against column q. -/
theorem layer2_apply (lhs : FVec Ideal S64x128 .bf16) (rhs : FVec Ideal S128x64 .bf16) (p : Fin 64) (q : Fin 64) :
    matmul dot_S64x128_S128x64_S64x64_1_0_0_1_n_n none lhs rhs (constant (F := Ideal) S64x64 .f32 0x00000000#32) (ix2 p q)
      = ∑ k : Fin 128, lhs (ix2 p k) * rhs (ix2 k q) := by
  show FloatOps.matmul dot_S64x128_S128x64_S64x64_1_0_0_1_n_n none lhs rhs (constant (F := Ideal) S64x64 .f32 0x00000000#32) (ix2 p q) = _
  rw [Ideal.matmul_constant_zero_apply, ← Equiv.sum_comp (ValueIdx.contrEquiv1 dot_S64x128_S128x64_S64x64_1_0_0_1_n_n 128 rfl rfl).symm]
  refine Finset.sum_congr rfl fun k _ => ?_
  have hk := ValueIdx.contrEquiv1_symm_val dot_S64x128_S128x64_S64x64_1_0_0_1_n_n 128 rfl rfl k
  have el : dot_S64x128_S128x64_S64x64_1_0_0_1_n_n.lhsIdx (ix2 p q) ((ValueIdx.contrEquiv1 dot_S64x128_S128x64_S64x64_1_0_0_1_n_n 128 rfl rfl).symm k) = ix2 p k := funext fun a => Fin.ext (by
    match a with
    | ⟨0, _⟩ => exact lhs_layer2_0 _ _
    | ⟨1, _⟩ => exact (lhs_layer2_1 _ _).trans hk)
  have er : dot_S64x128_S128x64_S64x64_1_0_0_1_n_n.rhsIdx (ix2 p q) ((ValueIdx.contrEquiv1 dot_S64x128_S128x64_S64x64_1_0_0_1_n_n 128 rfl rfl).symm k) = ix2 k q := funext fun a => Fin.ext (by
    match a with
    | ⟨0, _⟩ => exact (rhs_layer2_0 _ _).trans hk
    | ⟨1, _⟩ => exact rhs_layer2_1 _ _)
  rw [el, er]

/-! ## The four stores -/

/-- The left half's store: the accumulator's left half plus the block's feature sums per graph. -/
theorem featStore_apply (v3 : Vec Ideal S1x6400x128 .f32) (v6 : Vec Ideal S128x128 .f32) (v9 : Vec Ideal S128 .f32)
    (v16 : Vec Ideal S1x6400x1 .i32) (v27 : Vec Ideal S1x64x128 .f32) (g : Fin 64) (j : Fin 128) :
    k0_pay5 v3 v6 v9 v16 v27 (ix3 0 g j)
      = v27 (ix3 0 g j) + ∑ r : Fin 6400, EdgeReadout.ind (v16 (ix3 0 r 0)) g
          * EdgeReadout.hid (fun k => v3 (ix3 0 r k)) (fun k j' => v6 (ix2 k j')) (fun j' => v9 (ix1 j')) j := by
  unfold k0_pay5
  rw [shapeCast_ab_1ab_apply, addf_apply, shapeCast_1ab_ab_apply, scatter_apply]
  refine congrArg (v27 (ix3 0 g j) + ·) (Finset.sum_congr rfl fun r _ => ?_)
  rw [onehot_apply, truncf_apply, maximumf_apply, addf_apply, broadcast_apply, hidden_apply, broadcastTo_1b_ab_apply,
    shapeCast_a_1a_apply, show (FloatOps.ofBits (F := Ideal) .f32 0x00000000#32) = 0 from EdgeReadout.zero_f32]
  unfold EdgeReadout.hid
  refine congrArg (fun s => EdgeReadout.ind (v16 (ix3 0 r 0)) g * max (s + v9 (ix1 j)) 0) (Finset.sum_congr rfl fun k _ => ?_)
  rw [truncf_apply, truncf_apply, shapeCast_1ab_ab_apply]

/-- The right half's store: the accumulator's right half plus the block's edge count per graph, in every column. -/
theorem countStore_apply (v16 : Vec Ideal S1x6400x1 .i32) (v33 : Vec Ideal S1x64x128 .f32) (g : Fin 64) (j : Fin 128) :
    k0_pay1 (k0_pay4 v16) v33 (ix3 0 g j)
      = v33 (ix3 0 g j) + ∑ r : Fin 6400, EdgeReadout.ind (v16 (ix3 0 r 0)) g * 1 := by
  unfold k0_pay1 k0_pay4
  rw [shapeCast_ab_1ab_apply, addf_apply, shapeCast_1ab_ab_apply, scatter_apply]
  refine congrArg (v33 (ix3 0 g j) + ·) (Finset.sum_congr rfl fun r _ => ?_)
  rw [onehot_apply, broadcast_apply, show (FloatOps.ofBits (F := Ideal) .bf16 0x3F80#16) = 1 from EdgeReadout.one_bf16]

/-- The reset's store: zero everywhere. -/
theorem resetStore_apply (y : S1x64x256.Idx) : k0_pay2 (F := Ideal) y = 0 := by
  show Ideal.ofBits .f32 0x00000000#32 = 0
  exact EdgeReadout.zero_f32

/-- Region 1's store: the perceptron of the pooled rows. -/
theorem mlpStore_apply (v0 : Vec Ideal S64x128 .f32) (v3 : Vec Ideal S128x128 .f32) (v6 : Vec Ideal S128 .f32)
    (v13 : Vec Ideal S128x64 .f32) (v16 : Vec Ideal S64 .f32) (g o : Fin 64) :
    k1_pay1 v0 v3 v6 v13 v16 (ix2 g o)
      = EdgeReadout.mlp (fun a b => v0 (ix2 a b)) (fun a b => v3 (ix2 a b)) (fun a => v6 (ix1 a))
          (fun a b => v13 (ix2 a b)) (fun a => v16 (ix1 a)) g o := by
  unfold k1_pay1
  rw [addf_apply, layer2_apply, broadcastTo_1b_ab_apply, shapeCast_a_1a_apply]
  unfold EdgeReadout.mlp
  refine congrArg (· + v16 (ix1 o)) (Finset.sum_congr rfl fun k _ => ?_)
  rw [truncf_apply, truncf_apply, maximumf_apply, addf_apply, broadcast_apply, layer1_apply, broadcastTo_1b_ab_apply,
    shapeCast_a_1a_apply, show (FloatOps.ofBits (F := Ideal) .f32 0x00000000#32) = 0 from EdgeReadout.zero_f32]
  refine congrArg (fun s => max (s + v6 (ix1 k)) 0 * v13 (ix2 k o)) (Finset.sum_congr rfl fun k' _ => ?_)
  rw [truncf_apply, truncf_apply, shapeCast_self]

end Cert.KernelIdeal.EdgeValue

end
-- ==== Proof.Region0.lean ====
/-
  What region 0 leaves in its result array f32[2,64,256], index by index, over the extended reals.

  The region visits 2 partitions × 125 edge blocks of 6400 rows.  At a block it forms the hidden rows
  relu (x · W1 + b1) and the one-hot membership of each row's graph id, and adds to the carried accumulator block of its
  partition: in the columns < 128 the membership-weighted hidden features, in the columns ≥ 128 the membership counts.
  The accumulator block is zeroed at the partition's first block and written back after its last.

  So row p of the result array is, for graph g and column col, the sum over the partition's 125 blocks and each block's
  6400 rows of that row's term: [id = g] times the hidden feature col (col < 128) or times 1 (col ≥ 128).

  The steps: each store of the body read at an index (a reset point leaves the block's terms, any other point the
  carried value plus the block's terms); by induction on the point, the accumulator after point n holds the terms of
  the points of n's partition up to n; a point's input blocks are rows of the input arrays; the last point of each
  partition writes back row p, and the two rows cover the array.
-/
import proofs.«420980_j10582799417476_1_alg».proof.Proof.Spec
import proofs.«420980_j10582799417476_1_alg».proof.Proof.Payloads
import proofs.«420980_j10582799417476_1_alg».proof.Proof.Names
import proofs.«420980_j10582799417476_1_alg».proof.Proof.Gen.KernelIdeal.Frame
import Idealize.ShloMosaic.Lib.ValueIdx
import Idealize.ShloMosaic.Lib.ValueLayout
import Idealize.ShloMosaic.Lib.Pipeline.Value
import Idealize.ShloMosaic.Lib.Tactic

noncomputable section

namespace Cert.KernelIdeal.EdgeValue

open Idealize.ShloMosaic Idealize.ShloMosaic.ValueIdx Idealize.ShloMosaic.TcCoe Idealize.SL.Sem
open Cert.KernelIdeal Cert.KernelIdeal.Gen
open Idealize.ShloMosaic.Pipeline (Dat)

namespace R0

/-! ## Reading a list of stores through unit-stride rectangles at one index -/

section Canon
variable {Val : EltTy → Type} [∀ e, Nonempty (Val e)] {S : Shape} {e : EltTy}

/-- An index at position `x` of the last store's rectangle reads that store's payload at `x`. -/
theorem canon_unit_of_mem {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the last store's rectangle on axis `a` reads what the earlier stores left. -/
theorem canon_unit_of_not_mem {off size : Fin S.rank → ℕ} (inb : ∀ a, off a + size a ≤ S.size a)
    (w : (Rect.unit off size inb).shape.Idx → Val e) (L : List (View.Piece Val S e)) (y : S.Idx)
    (a : Fin S.rank) (ha : (y a).val < off a ∨ off a + size a ≤ (y a).val) :
    View.canon ((⟨Rect.unit off size inb, w⟩ : View.Piece Val S e) :: L) y = View.canon L y := by
  refine View.canon_cons_of_not_mem _ L ?_
  show y ∉ (Rect.unit off size inb).set
  rw [Rect.mem_set_unit]
  intro hall
  have := hall a
  omega

end Canon

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

theorem add_eq_of_eq_zero {a s : EReal} (h : a = 0) : a + s = s := by rw [h, zero_add]

/-- What one edge block adds to graph g's row at column col. -/
def blockTerm (x0 : Vec Ideal S1x6400x128 .f32) (x1 : Vec Ideal S1x6400x1 .i32) (x2 : Vec Ideal S128x128 .f32)
    (x3 : Vec Ideal S128 .f32) (g : Fin 64) (col : Fin 256) : EReal :=
  ∑ r : Fin 6400, EdgeReadout.edgeTerm (x1 (ix3 0 r 0)) (fun k => x0 (ix3 0 r k)) (fun k j => x2 (ix2 k j))
    (fun j => x3 (ix1 j)) g col

/-- The accumulator's index (0, g, col) seen from the right half store's rectangle, for col ≥ 128. -/
theorem right_hx (g : Fin 64) (col : Fin 256) (h : ¬col.val < 128) (a : Fin 3) :
    ((ix3 (0 : Fin 1) g col : S1x64x256.Idx) a).val
      = (![0, 0, 128] : Fin 3 → Nat) a + ((ix3 (0 : Fin 1) g (⟨col.val - 128, by have := col.isLt; omega⟩ : Fin 128) : S1x64x128.Idx) a).val := by
  match a with
  | ⟨0, _⟩ => rfl
  | ⟨1, _⟩ => show g.val = 0 + g.val; omega
  | ⟨2, _⟩ => show col.val = 128 + (col.val - 128); omega

/-- The same index seen from the left half store's rectangle, for col < 128. -/
theorem left_hx (g : Fin 64) (col : Fin 256) (h : col.val < 128) (a : Fin 3) :
    ((ix3 (0 : Fin 1) g col : S1x64x256.Idx) a).val
      = (![0, 0, 0] : Fin 3 → Nat) a + ((ix3 (0 : Fin 1) g (⟨col.val, h⟩ : Fin 128) : S1x64x128.Idx) a).val := by
  match a with
  | ⟨0, _⟩ => rfl
  | ⟨1, _⟩ => show g.val = 0 + g.val; omega
  | ⟨2, _⟩ => show col.val = 0 + col.val; omega

/-- A load of the left half reads the buffer's left columns. -/
theorem ld_left (xo : Vec Ideal S1x64x256 .f32) (inb) (g : Fin 64) (j : Fin 128) :
    View.ld xo (Rect.unit (s := S1x64x256) ![0, 0, 0] ![1, 64, 128] inb) (ix3 0 g j)
      = xo (ix3 0 g ⟨j.val, by have := j.isLt; omega⟩) := by
  show xo _ = xo _
  congr 1
  funext a; apply Fin.ext
  match a with
  | ⟨0, _⟩ => rfl
  | ⟨1, _⟩ => show 0 + 1 * g.val = g.val; omega
  | ⟨2, _⟩ => show 0 + 1 * j.val = j.val; omega

/-- A load of the right half reads the buffer's right columns. -/
theorem ld_right (xo : Vec Ideal S1x64x256 .f32) (inb) (g : Fin 64) (j : Fin 128) :
    View.ld xo (Rect.unit (s := S1x64x256) ![0, 0, 128] ![1, 64, 128] inb) (ix3 0 g j)
      = xo (ix3 0 g ⟨128 + j.val, by have := j.isLt; omega⟩) := by
  show xo _ = xo _
  congr 1
  funext a; apply Fin.ext
  match a with
  | ⟨0, _⟩ => rfl
  | ⟨1, _⟩ => show 0 + 1 * g.val = g.val; omega
  | ⟨2, _⟩ => show 128 + 1 * j.val = 128 + j.val; omega

/-- The block's term at a left column is the feature sum, at a right column the count. -/
theorem blockTerm_left (x0 : Vec Ideal S1x6400x128 .f32) (x1 : Vec Ideal S1x6400x1 .i32) (x2 : Vec Ideal S128x128 .f32)
    (x3 : Vec Ideal S128 .f32) (g : Fin 64) (col : Fin 256) (h : col.val < 128) :
    blockTerm x0 x1 x2 x3 g col = ∑ r : Fin 6400, EdgeReadout.ind (x1 (ix3 0 r 0)) g
      * EdgeReadout.hid (fun k => x0 (ix3 0 r k)) (fun k j' => x2 (ix2 k j')) (fun j' => x3 (ix1 j')) ⟨col.val, h⟩ := by
  unfold blockTerm EdgeReadout.edgeTerm
  simp only [dif_pos h]

theorem blockTerm_right (x0 : Vec Ideal S1x6400x128 .f32) (x1 : Vec Ideal S1x6400x1 .i32) (x2 : Vec Ideal S128x128 .f32)
    (x3 : Vec Ideal S128 .f32) (g : Fin 64) (col : Fin 256) (h : ¬col.val < 128) :
    blockTerm x0 x1 x2 x3 g col = ∑ r : Fin 6400, EdgeReadout.ind (x1 (ix3 0 r 0)) g * 1 := by
  unfold blockTerm EdgeReadout.edgeTerm
  simp only [dif_neg h]

/-- A point that does not reset leaves the carried block plus the edge block's terms. -/
theorem out_B (c : Dev nD) (i : grid0.Coords) (a2 : Memref sig .tc .vmem S1x6400x128 .f32) (h2 : a2.IsWhole) (a3 : Memref sig .tc .vmem S1x6400x1 .i32) (h3 : a3.IsWhole) (a4 : Memref sig .tc .vmem S128x128 .f32) (h4 : a4.IsWhole) (a5 : Memref sig .tc .vmem S128 .f32) (h5 : a5.IsWhole) (a6 : Memref sig .tc .vmem S1x64x256 .f32) (h6 : a6.IsWhole) (hc : ¬cond0_0 i)
    (x0 : Vec Ideal S1x6400x128 .f32) (x1 : Vec Ideal S1x6400x1 .i32) (x2 : Vec Ideal S128x128 .f32) (x3 : Vec Ideal S128 .f32) (xo : Vec Ideal S1x64x256 .f32) (g : Fin 64) (col : Fin 256) :
    out0_B_4 (F := Ideal) c i a2 h2 a3 h3 a4 h4 a5 h5 a6 h6 hc x0 x1 x2 x3 xo (ix3 0 g col)
      = xo (ix3 0 g col) + blockTerm x0 x1 x2 x3 g col := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  simp only [View.readAt_eq_ld, h2.read_unread, h3.read_unread, h4.read_unread, h5.read_unread, h6.read_unread,
    View.ld_unit_zero (S := S1x6400x128) hz3, View.ld_unit_zero (S := S1x6400x1) hz3,
    View.ld_unit_zero (S := S128x128) hz2, View.ld_unit_zero (S := S128) hz1]
  by_cases hcol : col.val < 128
  · refine (canon_unit_of_not_mem (S := S1x64x256) _ _ _ _ (2 : Fin 3) (Or.inl hcol)).trans ?_
    refine (canon_unit_of_mem (S := S1x64x256) _ _ _ _ (ix3 0 g (⟨col.val, hcol⟩ : Fin 128)) (left_hx g col hcol)).trans ?_
    rw [featStore_apply, ld_left, blockTerm_left x0 x1 x2 x3 g col hcol]
  · refine (canon_unit_of_mem (S := S1x64x256) _ _ _ _ (ix3 0 g (⟨col.val - 128, by have := col.isLt; omega⟩ : Fin 128)) (right_hx g col hcol)).trans ?_
    rw [countStore_apply, ld_right, blockTerm_right x0 x1 x2 x3 g col hcol]
    congr 2
    funext a; apply Fin.ext
    match a with
    | ⟨0, _⟩ => rfl
    | ⟨1, _⟩ => rfl
    | ⟨2, _⟩ => show 128 + (col.val - 128) = col.val; omega

/-- A point that resets leaves the edge block's terms alone: the block is zeroed, and each half's store adds to what
    it reads back of the zeroed block. -/
theorem out_A (c : Dev nD) (i : grid0.Coords) (a2 : Memref sig .tc .vmem S1x6400x128 .f32) (h2 : a2.IsWhole) (a3 : Memref sig .tc .vmem S1x6400x1 .i32) (h3 : a3.IsWhole) (a4 : Memref sig .tc .vmem S128x128 .f32) (h4 : a4.IsWhole) (a5 : Memref sig .tc .vmem S128 .f32) (h5 : a5.IsWhole) (a6 : Memref sig .tc .vmem S1x64x256 .f32) (h6 : a6.IsWhole) (hc : cond0_0 i)
    (x0 : Vec Ideal S1x6400x128 .f32) (x1 : Vec Ideal S1x6400x1 .i32) (x2 : Vec Ideal S128x128 .f32) (x3 : Vec Ideal S128 .f32) (g : Fin 64) (col : Fin 256) :
    out0_A_4 (F := Ideal) c i a2 h2 a3 h3 a4 h4 a5 h5 a6 h6 hc x0 x1 x2 x3 (ix3 0 g col)
      = blockTerm x0 x1 x2 x3 g col := by
  unfold out0_A_4
  rw [View.read_writes_eq_canon _ _ _ (cover0_A_4 c i a2 h2 a3 h3 a4 h4 a5 h5 a6 h6 hc x0 x1 x2 x3)]
  unfold kernelRun0_A
  dsimp only
  sl_unfold_words
  simp only [View.readAt_eq_ld, h2.read_unread, h3.read_unread, h4.read_unread, h5.read_unread,
    View.ld_unit_zero (S := S1x6400x128) hz3, View.ld_unit_zero (S := S1x6400x1) hz3,
    View.ld_unit_zero (S := S128x128) hz2, View.ld_unit_zero (S := S128) hz1, View.readCov_eq_canon',
    View.canon_unit_zero (S := S1x64x256) hz3]
  by_cases hcol : col.val < 128
  · refine (canon_unit_of_not_mem (S := S1x64x256) _ _ _ _ (2 : Fin 3) (Or.inl hcol)).trans ?_
    refine (canon_unit_of_mem (S := S1x64x256) _ _ _ _ (ix3 0 g (⟨col.val, hcol⟩ : Fin 128)) (left_hx g col hcol)).trans ?_
    rw [featStore_apply, resetStore_apply, zero_add, blockTerm_left x0 x1 x2 x3 g col hcol]
  · refine (canon_unit_of_mem (S := S1x64x256) _ _ _ _ (ix3 0 g (⟨col.val - 128, by have := col.isLt; omega⟩ : Fin 128)) (right_hx g col hcol)).trans ?_
    rw [countStore_apply, blockTerm_right x0 x1 x2 x3 g col hcol]
    refine add_eq_of_eq_zero ?_
    refine (canon_unit_of_not_mem (S := S1x64x256) _ _ _ _ (2 : Fin 3) (Or.inr ?_)).trans ?_
    · show 0 + 128 ≤ 128 + 1 * (col.val - 128); omega
    · exact (congrFun (View.canon_unit_zero (S := S1x64x256) hz3 _ _) _).trans (resetStore_apply _)

/-! ## The accumulation over the points -/

section Run

variable (V : (c : Dev nD) → (b : Ref sig .tc) → Buf (Elt Ideal) ((c : Thread nD τ).loc b))

/-- The four input blocks at a point, and the four arrays they are blocks of, by their literal types. -/
abbrev xblk (c : Dev nD) (t : Fin cfg0.N) : Vec Ideal S1x6400x128 .f32 := iblk0 (F := Ideal) V c 0 t
abbrev idblk (c : Dev nD) (t : Fin cfg0.N) : Vec Ideal S1x6400x1 .i32 := iblk0 (F := Ideal) V c 1 t
abbrev wblk (c : Dev nD) (t : Fin cfg0.N) : Vec Ideal S128x128 .f32 := iblk0 (F := Ideal) V c 2 t
abbrev bblk (c : Dev nD) (t : Fin cfg0.N) : Vec Ideal S128 .f32 := iblk0 (F := Ideal) V c 3 t
abbrev xarr (c : Dev nD) : Vec Ideal S2x800000x128 .f32 := V c main_v9
abbrev idarr (c : Dev nD) : Vec Ideal S2x800000x1 .i32 := V c main_v10
abbrev warr (c : Dev nD) : Vec Ideal S128x128 .f32 := V c main_arg3
abbrev barr (c : Dev nD) : Vec Ideal S128 .f32 := V c main_arg4

/-- What the point numbered n adds to graph g's row at column col (nothing past the grid). -/
def pointTerm (c : Dev nD) (n : ℕ) (g : Fin 64) (col : Fin 256) : EReal :=
  if h : n < cfg0.N then blockTerm (xblk V c ⟨n, h⟩) (idblk V c ⟨n, h⟩) (wblk V c ⟨n, h⟩) (bblk V c ⟨n, h⟩) g col else 0

theorem pointTerm_of_lt (c : Dev nD) (n : ℕ) (h : n < cfg0.N) (g : Fin 64) (col : Fin 256) :
    pointTerm V c n g col
      = blockTerm (xblk V c ⟨n, h⟩) (idblk V c ⟨n, h⟩) (wblk V c ⟨n, h⟩) (bblk V c ⟨n, h⟩) g col := dif_pos h

/-- After a point that resets, the block holds that point's terms. -/
theorem outsAt_reset (c : Dev nD) (t : Fin cfg0.N) (h0 : t.val % 125 = 0) (g : Fin 64) (col : Fin 256) :
    (outsAt0 (F := Ideal) V c t.val t.isLt : Vec Ideal S1x64x256 .f32) (ix3 0 g col)
      = blockTerm (xblk V c t) (idblk V c t) (wblk V c t) (bblk V c t) g col := by
  rw [outsAt0_A V c t h0]
  exact out_A c (grid0.coords t) (ms0_0 t) (hs0_0 t) (ms0_1 t) (hs0_1 t) (ms0_2 t) (hs0_2 t) (ms0_3 t) (hs0_3 t)
    (ms0_4 t) (hs0_4 t) ((hcond0_0 t).mpr h0) (xblk V c t) (idblk V c t) (wblk V c t) (bblk V c t) g col

/-- After any other point, what the point before left plus that point's terms. -/
theorem outsAt_step (c : Dev nD) (t : Fin cfg0.N) (h0 : ¬t.val % 125 = 0) (g : Fin 64) (col : Fin 256) :
    (outsAt0 (F := Ideal) V c t.val t.isLt : Vec Ideal S1x64x256 .f32) (ix3 0 g col)
      = (outsAt0 (F := Ideal) V c (t.val - 1) (Nat.lt_of_le_of_lt (Nat.sub_le _ _) t.isLt) : Vec Ideal S1x64x256 .f32) (ix3 0 g col)
        + blockTerm (xblk V c t) (idblk V c t) (wblk V c t) (bblk V c t) g col := by
  rw [outsAt0_B V c t h0]
  exact out_B c (grid0.coords t) (ms0_0 t) (hs0_0 t) (ms0_1 t) (hs0_1 t) (ms0_2 t) (hs0_2 t) (ms0_3 t) (hs0_3 t)
    (ms0_4 t) (hs0_4 t) (fun h => h0 ((hcond0_0 t).mp h)) (xblk V c t) (idblk V c t) (wblk V c t) (bblk V c t)
    (outsAt0 (F := Ideal) V c (t.val - 1) (Nat.lt_of_le_of_lt (Nat.sub_le _ _) t.isLt)) g col

/-- After point n the block holds the terms of the points of n's partition up to n. -/
theorem outsAt_eq (c : Dev nD) : ∀ (n : ℕ) (h : n < cfg0.N) (g : Fin 64) (col : Fin 256),
    (outsAt0 (F := Ideal) V c n h : Vec Ideal S1x64x256 .f32) (ix3 0 g col)
      = ∑ s ∈ Finset.range (n % 125 + 1), pointTerm V c (n - n % 125 + s) g col
  | 0, h, g, col => by
    have e : ∑ s ∈ Finset.range (0 % 125 + 1), pointTerm V c (0 - 0 % 125 + s) g col = pointTerm V c 0 g col :=
      Finset.sum_range_one _
    rw [e, pointTerm_of_lt V c 0 h]
    exact outsAt_reset V c ⟨0, h⟩ rfl g col
  | n + 1, h, g, col => by
    by_cases h0 : (n + 1) % 125 = 0
    · have e : ∑ s ∈ Finset.range ((n + 1) % 125 + 1), pointTerm V c (n + 1 - (n + 1) % 125 + s) g col
          = pointTerm V c (n + 1) g col := by
        rw [h0]; exact Finset.sum_range_one _
      rw [e, pointTerm_of_lt V c (n + 1) h]
      exact outsAt_reset V c ⟨n + 1, h⟩ h0 g col
    · have e : ∑ s ∈ Finset.range ((n + 1) % 125 + 1), pointTerm V c (n + 1 - (n + 1) % 125 + s) g col
          = ∑ s ∈ Finset.range (n % 125 + 1), pointTerm V c (n - n % 125 + s) g col + pointTerm V c (n + 1) g col := by
        have e1 : (n + 1) % 125 = n % 125 + 1 := by omega
        have e2 : n + 1 - (n % 125 + 1) = n - n % 125 := by omega
        have e3 : n - n % 125 + (n % 125 + 1) = n + 1 := by omega
        rw [e1, e2, Finset.sum_range_succ, e3]
      rw [e, ← outsAt_eq c n (Nat.lt_of_succ_lt h) g col, pointTerm_of_lt V c (n + 1) h]
      exact outsAt_step V c ⟨n + 1, h⟩ h0 g col

/-! ## The blocks are the arrays' rows -/

/-- The windows' block indices at point t: the edge windows move with the partition t / 125 and the block t % 125,
    the weights and the bias are one block, the result's block moves with the partition alone. -/
theorem idx_facts : ∀ t : Fin cfg0.N,
    win0_0.index t (0 : Fin 3) = t.val / 125 ∧ win0_0.index t (1 : Fin 3) = t.val % 125 ∧ win0_0.index t (2 : Fin 3) = 0
    ∧ win0_1.index t (0 : Fin 3) = t.val / 125 ∧ win0_1.index t (1 : Fin 3) = t.val % 125 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 125 ∧ win0_4.index t (1 : Fin 3) = 0 ∧ win0_4.index t (2 : Fin 3) = 0 :=
  (by decide +kernel : ∀ t : Fin grid0.N, _)

/-- Row r of the feature block at point t is row b·6400 + r of partition p. -/
theorem xblk_apply (c : Dev nD) (t : Fin cfg0.N) (p : Fin 2) (b : Fin 125) (hp : t.val / 125 = p.val)
    (hb : t.val % 125 = b.val) (r : Fin 6400) (k : Fin 128) :
    xblk V c t (ix3 0 r k) = xarr V c (ix3 p (EdgeReadout.blockRow b r) k) := by
  obtain ⟨e0, e1, e2, -⟩ := idx_facts t
  show xarr V c (((cfg0.win 0).blk t).view.emb (ix3 0 r k)) = xarr V c (ix3 p (EdgeReadout.blockRow b r) k)
  congr 1
  funext a; apply Fin.ext
  match a with
  | ⟨0, _⟩ => show win0_0.index t (0 : Fin 3) * 1 + 1 * 0 = p.val; omega
  | ⟨1, _⟩ => show win0_0.index t (1 : Fin 3) * 6400 + 1 * r.val = b.val * 6400 + r.val; omega
  | ⟨2, _⟩ => show win0_0.index t (2 : Fin 3) * 128 + 1 * k.val = k.val; omega

/-- Row r of the id block at point t likewise. -/
theorem idblk_apply (c : Dev nD) (t : Fin cfg0.N) (p : Fin 2) (b : Fin 125) (hp : t.val / 125 = p.val)
    (hb : t.val % 125 = b.val) (r : Fin 6400) :
    idblk V c t (ix3 0 r 0) = idarr V c (ix3 p (EdgeReadout.blockRow b r) 0) := by
  obtain ⟨-, -, -, e0, e1, e2, -⟩ := idx_facts t
  show idarr V c (((cfg0.win 1).blk t).view.emb (ix3 0 r 0)) = idarr V c (ix3 p (EdgeReadout.blockRow b r) 0)
  congr 1
  funext a; apply Fin.ext
  match a with
  | ⟨0, _⟩ => show win0_1.index t (0 : Fin 3) * 1 + 1 * 0 = p.val; omega
  | ⟨1, _⟩ => show win0_1.index t (1 : Fin 3) * 6400 + 1 * r.val = b.val * 6400 + r.val; omega
  | ⟨2, _⟩ => show win0_1.index t (2 : Fin 3) * 1 + 1 * 0 = 0; omega

/-- The weight block is the weight array. -/
theorem wblk_apply (c : Dev nD) (t : Fin cfg0.N) (k j : Fin 128) : wblk V c t (ix2 k j) = warr V c (ix2 k j) := by
  obtain ⟨-, -, -, -, -, -, e0, e1, -⟩ := idx_facts t
  show warr V c (((cfg0.win 2).blk t).view.emb (ix2 k j)) = warr V c (ix2 k j)
  congr 1
  funext a; apply Fin.ext
  match a with
  | ⟨0, _⟩ => show win0_2.index t (0 : Fin 2) * 128 + 1 * k.val = k.val; omega
  | ⟨1, _⟩ => show win0_2.index t (1 : Fin 2) * 128 + 1 * j.val = j.val; omega

/-- The bias block is the bias array. -/
theorem bblk_apply (c : Dev nD) (t : Fin cfg0.N) (j : Fin 128) : bblk V c t (ix1 j) = barr V c (ix1 j) := by
  obtain ⟨-, -, -, -, -, -, -, -, e0, -⟩ := idx_facts t
  show barr V c (((cfg0.win 3).blk t).view.emb (ix1 j)) = barr V c (ix1 j)
  congr 1
  funext a; apply Fin.ext
  match a with
  | ⟨0, _⟩ => show win0_3.index t (0 : Fin 1) * 128 + 1 * j.val = j.val; omega

theorem edgeTerm_congr {b b' : BitVec 32} {x x' : Fin 128 → EReal} {w w' : Fin 128 → Fin 128 → EReal}
    {bias bias' : Fin 128 → EReal} (hb : b = b') (hx : x = x') (hw : w = w') (hbias : bias = bias')
    (g : Fin 64) (col : Fin 256) :
    EdgeReadout.edgeTerm b x w bias g col = EdgeReadout.edgeTerm b' x' w' bias' g col := by
  subst hb hx hw hbias; rfl

/-- What block b of partition p adds to graph g's row at column col, read off the arrays. -/
def rowTerm (c : Dev nD) (p : Fin 2) (b : Fin 125) (g : Fin 64) (col : Fin 256) : EReal :=
  ∑ r : Fin 6400, EdgeReadout.edgeTerm (idarr V c (ix3 p (EdgeReadout.blockRow b r) 0))
    (fun k => xarr V c (ix3 p (EdgeReadout.blockRow b r) k)) (fun k j => warr V c (ix2 k j))
    (fun j => barr V c (ix1 j)) g col

/-- The terms of the point p·125 + b are those of block b of partition p. -/
theorem blockTerm_blocks (c : Dev nD) (t : Fin cfg0.N) (p : Fin 2) (b : Fin 125) (hp : t.val / 125 = p.val)
    (hb : t.val % 125 = b.val) (g : Fin 64) (col : Fin 256) :
    blockTerm (xblk V c t) (idblk V c t) (wblk V c t) (bblk V c t) g col = rowTerm V c p b g col := by
  unfold blockTerm rowTerm
  refine Finset.sum_congr rfl fun r _ => ?_
  exact edgeTerm_congr (idblk_apply V c t p b hp hb r) (funext fun k => xblk_apply V c t p b hp hb r k)
    (funext fun k => funext fun j => wblk_apply V c t k j) (funext fun j => bblk_apply V c t j) g col

/-! ## The result array -/

/-- Graph g's row at column col over partition p's 125 blocks. -/
def partSum (c : Dev nD) (p : Fin 2) (g : Fin 64) (col : Fin 256) : EReal := ∑ b : Fin 125, rowTerm V c p b g col

/-- The closed form of the result array: row p is partition p's accumulator. -/
abbrev closed (c : Dev nD) : Vec Ideal S2x64x256 .f32 := fun i => partSum V c (i 0) (i 1) (i 2)

/-- After a partition's last point the block holds the partition's sum. -/
theorem outsAt_last (c : Dev nD) (t : Fin cfg0.N) (p : Fin 2) (hp : t.val / 125 = p.val) (h124 : t.val % 125 = 124)
    (g : Fin 64) (col : Fin 256) :
    (outsAt0 (F := Ideal) V c t.val t.isLt : Vec Ideal S1x64x256 .f32) (ix3 0 g col) = partSum V c p g col := by
  have hN : t.val < 250 := lt_of_lt_of_eq t.isLt (show cfg0.N = 250 from N_0)
  rw [outsAt_eq V c t.val t.isLt g col, h124, Finset.sum_range]
  unfold partSum
  refine Finset.sum_congr rfl fun b _ => ?_
  have hb : b.val < 125 := b.isLt
  have hlt : t.val - 124 + b.val < cfg0.N := lt_of_lt_of_eq (by omega) (show 250 = cfg0.N from N_0.symm)
  rw [pointTerm_of_lt V c (t.val - 124 + b.val) hlt]
  exact blockTerm_blocks V c ⟨t.val - 124 + b.val, hlt⟩ p b (by show (t.val - 124 + b.val) / 125 = p.val; omega)
    (by show (t.val - 124 + b.val) % 125 = b.val; omega) g col

/-- What a partition's last point writes back is its block of the closed form. -/
theorem flushed_eq (c : Dev nD) (t : Fin cfg0.N) (hf : (cfg0.win 4).flush t = true) :
    (dat0 (F := Ideal) V c).flushed 4 t = ((cfg0.win 4).blk t).view.read (Elt Ideal) (closed V c) := by
  have hN : t.val < 250 := lt_of_lt_of_eq t.isLt (show cfg0.N = 250 from N_0)
  have h124 : t.val % 125 = 124 := (flush0_4 t).mp hf
  obtain ⟨-, -, -, -, -, -, -, -, -, e0, e1, e2⟩ := idx_facts t
  show (cfg0.win 4).cut (grid0.coords t) ((dat0 (F := Ideal) V c).after 4 t) = _
  rw [after0_4]
  funext j
  obtain ⟨g, col, rfl⟩ : ∃ (g : Fin 64) (col : Fin 256), j = (ix3 (0 : Fin 1) g col : S1x64x256.Idx) :=
    ⟨j 1, j 2, by
      funext a
      apply Fin.ext
      match a with
      | ⟨0, h⟩ => have h1 : (j ⟨0, h⟩).val < 1 := (j ⟨0, h⟩).isLt; show (j ⟨0, h⟩).val = 0; omega
      | ⟨1, _⟩ => rfl
      | ⟨2, _⟩ => rfl⟩
  show (outsAt0 (F := Ideal) V c t.val t.isLt : Vec Ideal S1x64x256 .f32) (ix3 0 g col)
    = closed V c (((cfg0.win 4).blk t).view.emb (ix3 0 g col))
  rw [outsAt_last V c t ⟨t.val / 125, by omega⟩ rfl h124 g col]
  show partSum V c _ _ _ = partSum V c _ _ _
  congr 1
  · apply Fin.ext; show t.val / 125 = win0_4.index t (0 : Fin 3) * 1 + 1 * 0; omega
  · apply Fin.ext; show g.val = win0_4.index t (1 : Fin 3) * 64 + 1 * g.val; omega
  · apply Fin.ext; show col.val = win0_4.index t (2 : Fin 3) * 256 + 1 * col.val; omega

/-- Every row of the result array is written back by its partition's last point. -/
theorem covered (c : Dev nD) (i : S2x64x256.Idx) :
    ∃ t : Fin cfg0.N, (cfg0.win 4).flush t = true ∧ i ∈ ((cfg0.win 4).blk t).view.set := by
  have h0 : (i 0).val < 2 := (i 0).isLt
  have h1 : (i 1).val < 64 := (i 1).isLt
  have h2 : (i 2).val < 256 := (i 2).isLt
  have hlt : (i 0).val * 125 + 124 < cfg0.N := lt_of_lt_of_eq (by omega) (show 250 = cfg0.N from N_0.symm)
  refine ⟨⟨(i 0).val * 125 + 124, hlt⟩, (flush0_4 _).mpr (by show ((i 0).val * 125 + 124) % 125 = 124; omega), ?_⟩
  obtain ⟨-, -, -, -, -, -, -, -, -, e0, e1, e2⟩ := idx_facts ⟨(i 0).val * 125 + 124, hlt⟩
  have e0' : win0_4.index ⟨(i 0).val * 125 + 124, hlt⟩ (0 : Fin 3) = (i 0).val := by
    rw [e0]; show ((i 0).val * 125 + 124) / 125 = (i 0).val; omega
  show i ∈ ((View.whole main_v11).slice (win0_4.rect ⟨(i 0).val * 125 + 124, hlt⟩)).set
  rw [View.set_slice_whole, Rect.mem_set_unit]
  intro a
  match a with
  | ⟨0, _⟩ =>
    show win0_4.index ⟨(i 0).val * 125 + 124, hlt⟩ (0 : Fin 3) * 1 ≤ (i 0).val
      ∧ (i 0).val < win0_4.index ⟨(i 0).val * 125 + 124, hlt⟩ (0 : Fin 3) * 1 + 1
    omega
  | ⟨1, _⟩ =>
    show win0_4.index ⟨(i 0).val * 125 + 124, hlt⟩ (1 : Fin 3) * 64 ≤ (i 1).val
      ∧ (i 1).val < win0_4.index ⟨(i 0).val * 125 + 124, hlt⟩ (1 : Fin 3) * 64 + 64
    omega
  | ⟨2, _⟩ =>
    show win0_4.index ⟨(i 0).val * 125 + 124, hlt⟩ (2 : Fin 3) * 256 ≤ (i 2).val
      ∧ (i 2).val < win0_4.index ⟨(i 0).val * 125 + 124, hlt⟩ (2 : Fin 3) * 256 + 256
    omega

/-- So the result array ends holding the closed form. -/
theorem partAcc_eq (c : Dev nD) : partAcc V c = closed V c :=
  (dat0 (F := Ideal) V c).arrAt_eq_of_cover 4 (closed V c) (flushed_eq V c) (covered c)

end Run

end R0

section Result

variable (V : (c : Dev nD) → (b : Ref sig .tc) → Buf (Elt Ideal) ((c : Thread nD τ).loc b))

/-- Region 0's result array, index by index: graph g's row of partition p at column col is the sum over the
    partition's 125 blocks of 6400 edge rows of each edge's term. -/
theorem region0_apply (c : Dev nD) (p : Fin 2) (g : Fin 64) (col : Fin 256) :
    partAcc V c (ix3 p g col)
      = ∑ b : Fin 125, ∑ r : Fin 6400, EdgeReadout.edgeTerm
          ((V c main_v10 : Vec Ideal S2x800000x1 .i32) (ix3 p (EdgeReadout.blockRow b r) 0))
          (fun k => (V c main_v9 : Vec Ideal S2x800000x128 .f32) (ix3 p (EdgeReadout.blockRow b r) k))
          (fun k j => (V c main_arg3 : Vec Ideal S128x128 .f32) (ix2 k j))
          (fun j => (V c main_arg4 : Vec Ideal S128 .f32) (ix1 j)) g col := by
  rw [R0.partAcc_eq V c]
  rfl

end Result

end Cert.KernelIdeal.EdgeValue

end
-- ==== Proof.Region1.lean ====
/-
  The program's result array, read back to region 0's result array.

  Between the regions the host sums region 0's two partition accumulators, takes the feature sums (columns 0 to 127)
  and the edge count (column 128) of every graph, raises the count to at least one and divides: the pooled rows.
  Region 1 has one grid point, every window's block is its whole array, and its body stores once, over the whole
  output buffer, the two-layer perceptron of the pooled rows with the four parameter arrays.  No host operation and
  neither region writes a parameter array, so region 1 reads them as launched.
-/
import proofs.«420980_j10582799417476_1_alg».proof.Proof.Spec
import proofs.«420980_j10582799417476_1_alg».proof.Proof.Payloads
import proofs.«420980_j10582799417476_1_alg».proof.Proof.Names
import proofs.«420980_j10582799417476_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic

noncomputable section

namespace Cert.KernelIdeal.EdgeValue

open Idealize.ShloMosaic Idealize.ShloMosaic.ValueIdx Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

namespace Region1

/-! ## The host between the regions, from region 0's result array -/

/-- The partition sums: region 0's result array summed over its leading axis, from zero. -/
def partSum (A : Vec Ideal S2x64x256 .f32) : Vec Ideal S64x256 .f32 :=
  Host.reduceAdd A (constant (F := Ideal) S_ .f32 0x00000000#32) reducesTo_S2x64x256_S64x256_d0 h_S_

/-- The host between the regions as one function of region 0's result array: the feature sums (columns 0 to 127 of the
    partition sums) divided by the edge count (column 128) raised to at least one. -/
def hostMean (A : Vec Ideal S2x64x256 .f32) : Vec Ideal S64x128 .f32 :=
  Host.divf (extractStridedSlice S64x128 ![0, 0] (partSum A) slices_S64x256_S64x128_0_0)
    (broadcastInDim S64x128 ![0, 1] bcast_S64x1_S64x128_0_1
      (broadcastInDim S64x1 ![0] bcast_S64_S64x1_0
        (maximumf
          (shapeCast S64 (extractStridedSlice S64x1 ![0, 128] (partSum A) slices_S64x256_S64x1_0_128) shapeCasts_S64x1_S64)
          (broadcastInDim S64 ![] bcast_S_S64 (constant (F := Ideal) S_ .f32 0x3F800000#32)))))

/-- The partition sum at (g, col) is the sum of the two partitions' entries there. -/
theorem partSum_apply (A : Vec Ideal S2x64x256 .f32) (g : Fin 64) (col : Fin 256) :
    partSum A (ix2 g col) = A (ix3 0 g col) + A (ix3 1 g col) := by
  have h : S2x64x256.Reduces [0] S64x256 := by decide
  have e0 : h.lift (ix2 g col) (0 : Fin 2) = ix3 0 g col := by
    funext a; apply Fin.ext; match a with | ⟨0, _⟩ => rfl | ⟨1, _⟩ => rfl | ⟨2, _⟩ => rfl
  have e1 : h.lift (ix2 g col) (1 : Fin 2) = ix3 1 g col := by
    funext a; apply Fin.ext; match a with | ⟨0, _⟩ => rfl | ⟨1, _⟩ => rfl | ⟨2, _⟩ => rfl
  show Ideal.hostReduceAdd reducesTo_S2x64x256_S64x256_d0 A (Ideal.ofBits .f32 0x00000000#32) (ix2 g col) = _
  rw [Ideal.hostReduceAdd_single reducesTo_S2x64x256_S64x256_d0 h A _ (ix2 g col), EdgeReadout.zero_f32, zero_add]
  refine (Fin.sum_univ_two (fun k : Fin 2 => A (h.lift (ix2 g col) k))).trans ?_
  rw [e0, e1]

/-- Columns 0 to 127 of a [64, 256] array, read at (g, j). -/
theorem featCols_apply (S : Vec Ideal S64x256 .f32) (g : Fin 64) (j : Fin 128) (hj : j.val < 256) :
    extractStridedSlice S64x128 ![0, 0] S slices_S64x256_S64x128_0_0 (ix2 g j) = S (ix2 g ⟨j.val, hj⟩) :=
  extractStridedSlice_apply (s := S64x256) (t := S64x128) ![0, 0] S slices_S64x256_S64x128_0_0 (ix2 g j) (ix2 g ⟨j.val, hj⟩)
    fun a => by
      match a with
      | ⟨0, _⟩ => show g.val = 0 + g.val; omega
      | ⟨1, _⟩ => show j.val = 0 + j.val; omega

/-- Column 128 of a [64, 256] array as a vector of 64, read at g. -/
theorem countCol_apply (S : Vec Ideal S64x256 .f32) (g : Fin 64) :
    shapeCast S64 (extractStridedSlice S64x1 ![0, 128] S slices_S64x256_S64x1_0_128) shapeCasts_S64x1_S64 (ix1 g)
      = S (ix2 g ⟨128, by omega⟩) := by
  refine (shapeCast_apply (s := S64x1) (t := S64) _ shapeCasts_S64x1_S64 (ix1 g) (ix2 g (0 : Fin 1)) ?_).trans ?_
  · rw [Shape.rowMajor_val_two, Shape.rowMajor_val_one]
    show g.val * 1 + 0 = g.val
    omega
  exact extractStridedSlice_apply (s := S64x256) (t := S64x1) ![0, 128] S slices_S64x256_S64x1_0_128 (ix2 g (0 : Fin 1))
    (ix2 g ⟨128, by omega⟩) fun a => by
      match a with
      | ⟨0, _⟩ => show g.val = 0 + g.val; omega
      | ⟨1, _⟩ => show 128 = 128 + 0; omega

/-- A vector of 64 spread along the rows of a [64, 128] array, read at (g, j). -/
theorem rowSpread_apply (d : Vec Ideal S64 .f32) (g : Fin 64) (j : Fin 128) :
    broadcastInDim S64x128 ![0, 1] bcast_S64x1_S64x128_0_1 (broadcastInDim S64x1 ![0] bcast_S64_S64x1_0 d) (ix2 g j) = d (ix1 g) := by
  refine (broadcastInDim_apply (s := S64x1) (t := S64x128) ![0, 1] bcast_S64x1_S64x128_0_1 _ (ix2 g j) (ix2 g (0 : Fin 1)) ?_).trans ?_
  · intro a
    match a with
    | ⟨0, _⟩ => rfl
    | ⟨1, _⟩ => rfl
  exact broadcastInDim_apply (s := S64) (t := S64x1) ![0] bcast_S64_S64x1_0 d (ix2 g (0 : Fin 1)) (ix1 g) fun a => by
    match a with
    | ⟨0, _⟩ => rfl

/-- The host's mean at (g, j): graph g's feature sum j over the two partitions, divided by its edge count over the two
    partitions raised to at least one. -/
theorem hostMean_apply (A : Vec Ideal S2x64x256 .f32) (g : Fin 64) (j : Fin 128) :
    hostMean A (ix2 g j) = EdgeReadout.pooled (fun g' col => A (ix3 0 g' col) + A (ix3 1 g' col)) g j := by
  have hj : j.val < 256 := by have := j.isLt; omega
  unfold hostMean EdgeReadout.pooled
  show Ideal.div (extractStridedSlice S64x128 ![0, 0] (partSum A) slices_S64x256_S64x128_0_0 (ix2 g j))
      (broadcastInDim S64x128 ![0, 1] bcast_S64x1_S64x128_0_1 (broadcastInDim S64x1 ![0] bcast_S64_S64x1_0
        (maximumf (shapeCast S64 (extractStridedSlice S64x1 ![0, 128] (partSum A) slices_S64x256_S64x1_0_128) shapeCasts_S64x1_S64)
          (broadcastInDim S64 ![] bcast_S_S64 (constant (F := Ideal) S_ .f32 0x3F800000#32)))) (ix2 g j))
    = Ideal.div (A (ix3 0 g ⟨j.val, _⟩) + A (ix3 1 g ⟨j.val, _⟩)) (max (A (ix3 0 g ⟨128, _⟩) + A (ix3 1 g ⟨128, _⟩)) 1)
  rw [featCols_apply (partSum A) g j hj, rowSpread_apply, partSum_apply]
  show Ideal.div _ (max (shapeCast S64 (extractStridedSlice S64x1 ![0, 128] (partSum A) slices_S64x256_S64x1_0_128) shapeCasts_S64x1_S64 (ix1 g))
      (Ideal.ofBits .f32 0x3F800000#32)) = _
  rw [countCol_apply (partSum A) g, partSum_apply, EdgeReadout.one_f32]

/-! ## What region 1 is entered with -/

/-- The pooled rows' array holds the host's mean of what region 0 left in its result array: the eleven operations
    between the regions, applied in order to that array. -/
theorem entry_pooled (c : Dev nD) :
    (V3 (F := Ideal) m ρ c main_v20 : Vec Ideal S64x128 .f32) = hostMean (partAcc (V1 m ρ) c) := by
  have e : W2 (F := Ideal) m ρ c (Proc.devRef .tc main_v11) = (dat0 (F := Ideal) (V1 m ρ) c).arrAt 4 cfg0.N := W2_arr m ρ c 4
  show StableHlo.after hostOps1 (W2 m ρ c) (Proc.devRef .tc main_v20) = _
  after_results
  rw [e]
  rfl

/-- The four parameter arrays are as launched: region 1 only reads them, and nothing before it writes them. -/
theorem entry_w2 (c : Dev nD) : V3 (F := Ideal) m ρ c main_arg5 = m ((c : Thread nD τ).loc main_arg5) :=
  ((W4_arr m ρ c 1).trans (((dat1 (V3 m ρ) c).arrAt_in 1 rfl _).trans (A_eq1 (V3 m ρ) c 1))).symm.trans (W4_main_arg5 m ρ c)
theorem entry_b2 (c : Dev nD) : V3 (F := Ideal) m ρ c main_arg6 = m ((c : Thread nD τ).loc main_arg6) :=
  ((W4_arr m ρ c 2).trans (((dat1 (V3 m ρ) c).arrAt_in 2 rfl _).trans (A_eq1 (V3 m ρ) c 2))).symm.trans (W4_main_arg6 m ρ c)
theorem entry_w3 (c : Dev nD) : V3 (F := Ideal) m ρ c main_arg7 = m ((c : Thread nD τ).loc main_arg7) :=
  ((W4_arr m ρ c 3).trans (((dat1 (V3 m ρ) c).arrAt_in 3 rfl _).trans (A_eq1 (V3 m ρ) c 3))).symm.trans (W4_main_arg7 m ρ c)
theorem entry_b3 (c : Dev nD) : V3 (F := Ideal) m ρ c main_arg8 = m ((c : Thread nD τ).loc main_arg8) :=
  ((W4_arr m ρ c 4).trans (((dat1 (V3 m ρ) c).arrAt_in 4 rfl _).trans (A_eq1 (V3 m ρ) c 4))).symm.trans (W4_main_arg8 m ρ c)

/-! ## Region 1: one point, whole arrays, one store -/

/-- The offsets of a whole-array access, however the zeros are spelt. -/
theorem origin2 : (![0, 0] : Fin 2 → Nat) = fun _ => 0 := funext fun a => by fin_cases a <;> rfl
theorem origin1 : (![0] : Fin 1 → Nat) = fun _ => 0 := funext fun a => by fin_cases a <;> rfl

/-- Region 1's body leaves in its output buffer the one store's payload over the input blocks: every load and the
    store go through the whole buffers. -/
theorem out_eq (x0 : Vec Ideal S64x128 .f32) (x1 : Vec Ideal S128x128 .f32) (x2 : Vec Ideal S128 .f32)
    (x3 : Vec Ideal S128x64 .f32) (x4 : Vec Ideal S64 .f32) :
    out1_5 (F := Ideal) x0 x1 x2 x3 x4 = k1_pay1 x0 x1 x2 x3 x4 := by
  unfold out1_5
  rw [View.canon_unit_zero origin2]
  simp only [View.ld_unit_zero (S := S64x128) origin2, View.ld_unit_zero (S := S128x128) origin2,
    View.ld_unit_zero (S := S128) origin1, View.ld_unit_zero (S := S128x64) origin2, View.ld_unit_zero (S := S64) origin1]

section Blocks
variable (V : (c : Dev nD) → (b : Ref sig .tc) → Buf (Elt Ideal) ((c : Thread nD τ).loc b))

/-- At region 1's one point each input window's block is its whole array: block index zero on every axis. -/
theorem blk_pooled (c : Dev nD) : (iblk1 (F := Ideal) V c 0 t1_0 : Vec Ideal S64x128 .f32) = V c main_v20 := by
  have hz : (fun a => win1_0.index t1_0 a * main_v20.ty.shape.size a) = fun _ => 0 := funext fun a => by fin_cases a <;> decide
  exact Memref.read_access_unit_zero (Elt Ideal) main_v20 hz (fun a => by rw [congrFun hz a]; simp) (V c main_v20)
theorem blk_w2 (c : Dev nD) : (iblk1 (F := Ideal) V c 1 t1_0 : Vec Ideal S128x128 .f32) = V c main_arg5 := by
  have hz : (fun a => win1_1.index t1_0 a * main_arg5.ty.shape.size a) = fun _ => 0 := funext fun a => by fin_cases a <;> decide
  exact Memref.read_access_unit_zero (Elt Ideal) main_arg5 hz (fun a => by rw [congrFun hz a]; simp) (V c main_arg5)
theorem blk_b2 (c : Dev nD) : (iblk1 (F := Ideal) V c 2 t1_0 : Vec Ideal S128 .f32) = V c main_arg6 := by
  have hz : (fun a => win1_2.index t1_0 a * main_arg6.ty.shape.size a) = fun _ => 0 := funext fun a => by fin_cases a <;> decide
  exact Memref.read_access_unit_zero (Elt Ideal) main_arg6 hz (fun a => by rw [congrFun hz a]; simp) (V c main_arg6)
theorem blk_w3 (c : Dev nD) : (iblk1 (F := Ideal) V c 3 t1_0 : Vec Ideal S128x64 .f32) = V c main_arg7 := by
  have hz : (fun a => win1_3.index t1_0 a * main_arg7.ty.shape.size a) = fun _ => 0 := funext fun a => by fin_cases a <;> decide
  exact Memref.read_access_unit_zero (Elt Ideal) main_arg7 hz (fun a => by rw [congrFun hz a]; simp) (V c main_arg7)
theorem blk_b3 (c : Dev nD) : (iblk1 (F := Ideal) V c 4 t1_0 : Vec Ideal S64 .f32) = V c main_arg8 := by
  have hz : (fun a => win1_4.index t1_0 a * main_arg8.ty.shape.size a) = fun _ => 0 := funext fun a => by fin_cases a <;> decide
  exact Memref.read_access_unit_zero (Elt Ideal) main_arg8 hz (fun a => by rw [congrFun hz a]; simp) (V c main_arg8)

end Blocks

/-- What region 1 writes: the perceptron's store over the host's mean of region 0's result array and the four
    parameter arrays as launched. -/
def resultArr (c : Dev nD) : Vec Ideal S64x64 .f32 :=
  k1_pay1 (hostMean (partAcc (V1 m ρ) c)) (m ((c : Thread nD τ).loc main_arg5)) (m ((c : Thread nD τ).loc main_arg6))
    (m ((c : Thread nD τ).loc main_arg7)) (m ((c : Thread nD τ).loc main_arg8))

/-- After the body the output window's buffer holds that array. -/
theorem after_eq (c : Dev nD) : (dat1 (F := Ideal) (V3 m ρ) c).after 5 t1_0 = resultArr m ρ c := by
  rw [after1_5, blk_pooled (V3 m ρ) c, blk_w2 (V3 m ρ) c, blk_b2 (V3 m ρ) c, blk_w3 (V3 m ρ) c, blk_b3 (V3 m ρ) c,
    entry_pooled m ρ c, entry_w2 m ρ c, entry_b2 m ρ c, entry_w3 m ρ c, entry_b3 m ρ c]
  exact out_eq _ _ _ _ _

/-- The one write-back writes it: the output's block is the whole result array. -/
theorem flushed_eq (c : Dev nD) (t : Fin cfg1.N) (hf : (cfg1.win 5).flush t = true) :
    (dat1 (F := Ideal) (V3 m ρ) c).flushed 5 t = ((cfg1.win 5).blk t).view.read (Elt Ideal) (resultArr m ρ c) := by
  obtain rfl : t = t1_0 := fin_N1 t
  show (cfg1.win 5).cut (grid1.coords t1_0) ((dat1 (F := Ideal) (V3 m ρ) c).after 5 t1_0) = _
  rw [after_eq]
  have hz : (fun a => win1_5.index t1_0 a * main_v21.ty.shape.size a) = fun _ => 0 := funext fun a => by fin_cases a <;> decide
  exact (Memref.read_access_unit_zero (Elt Ideal) main_v21 hz (fun a => by rw [congrFun hz a]; simp) (resultArr m ρ c)).symm

/-- So the result array ends holding it: the one point's block covers every index. -/
theorem final (c : Dev nD) : (dat1 (F := Ideal) (V3 m ρ) c).arrAt 5 cfg1.N = resultArr m ρ c :=
  (dat1 (F := Ideal) (V3 m ρ) c).arrAt_eq_of_cover 5 (resultArr m ρ c) (flushed_eq m ρ c) fun i =>
    ⟨t1_0, flush1_5 t1_0, by
      have hz : (fun a => win1_5.index t1_0 a * win1_5.size a) = fun _ => 0 := funext fun a => by fin_cases a <;> decide
      show i ∈ ((View.whole main_v21).slice (win1_5.rect t1_0)).set
      rw [View.set_slice_whole]
      exact View.mem_set_unit_zero (S := S64x64) hz _ i⟩

end Region1

/-! ## The result, at an index -/

open Region1

/-- Entry (g, o) of the program's result is the perceptron of the pooled rows of region 0's result array, summed over
    the two partitions, with the parameter arrays as launched. -/
theorem result_apply (c : Dev nD) (g o : Fin 64) :
    (W4 (F := Ideal) m ρ c (Proc.devRef .tc main_v21) : Vec Ideal S64x64 .f32) (ix2 g o)
      = EdgeReadout.mlp
          (EdgeReadout.pooled (fun g' col => partAcc (V1 m ρ) c (ix3 0 g' col) + partAcc (V1 m ρ) c (ix3 1 g' col)))
          (fun a b => m ((c : Thread nD τ).loc main_arg5) (ix2 a b)) (fun a => m ((c : Thread nD τ).loc main_arg6) (ix1 a))
          (fun a b => m ((c : Thread nD τ).loc main_arg7) (ix2 a b)) (fun a => m ((c : Thread nD τ).loc main_arg8) (ix1 a)) g o := by
  have e : W4 (F := Ideal) m ρ c (Proc.devRef .tc main_v21) = resultArr m ρ c := (W4_arr m ρ c 5).trans (final m ρ c)
  rw [e]
  unfold resultArr
  rw [mlpStore_apply]
  simp only [hostMean_apply]

end Cert.KernelIdeal.EdgeValue

end
-- ==== Proof.Entry.lean ====
/-
  The arrays region 0 is entered with, read back to the program's arguments.

  Before region 0 the host computes, for every edge, the graph id of its first endpoint (the batch vector gathered at
  the first row of the edge index, a negative index wrapped by the number of nodes), and views the edge features and
  these ids as 2 partitions of 800000 rows.  Row e of partition p is edge p·800000 + e; the weight and the bias of the
  first layer are entered as launched.
-/
import proofs.«420980_j10582799417476_1_alg».proof.Proof.Spec
import proofs.«420980_j10582799417476_1_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.EdgeValue

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ) (ρ : Dev nD → PrngReg)

/-- The graph id of every edge: the batch vector gathered at the first row of the edge index, a negative index
    wrapped by the number of nodes. -/
def edgeGraph (x0 : Vec Ideal S2x1600000 .i32) (x2 : Vec Ideal S50000 .i32) : Vec Ideal S1600000 .i32 :=
  Host.gather gather_S50000_S1600000x1_S1600000_n_0_n_n_0_1_1 x2
    (broadcastInDim S1600000x1 ![0] bcast_S1600000_S1600000x1_0
      (select
        (cmpi .slt
          (shapeCast S1600000 (extractStridedSlice S1x1600000 ![0, 0] x0 slices_S2x1600000_S1x1600000_0_0)
            shapeCasts_S1x1600000_S1600000)
          (broadcastInDim S1600000 ![] bcast_S_S1600000 (constantI S_ 32 0#32)))
        (addi
          (shapeCast S1600000 (extractStridedSlice S1x1600000 ![0, 0] x0 slices_S2x1600000_S1x1600000_0_0)
            shapeCasts_S1x1600000_S1600000)
          (broadcastInDim S1600000 ![] bcast_S_S1600000 (constantI S_ 32 50000#32)))
        (shapeCast S1600000 (extractStridedSlice S1x1600000 ![0, 0] x0 slices_S2x1600000_S1x1600000_0_0)
          shapeCasts_S1x1600000_S1600000)))

/-- No host operation before region 0 writes the first layer's weight. -/
theorem entry_w (c : Dev nD) : V1 (F := Ideal) m ρ c main_arg3 = m ((c : Thread nD τ).loc main_arg3) :=
  calc V1 (F := Ideal) m ρ c main_arg3
    _ = W0 m ρ c (Proc.devRef .tc main_arg3) := StableHlo.after_of_forall_not_mem (b := Proc.devRef .tc main_arg3) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg3) := rfl

/-- No host operation before region 0 writes the first layer's bias. -/
theorem entry_b (c : Dev nD) : V1 (F := Ideal) m ρ c main_arg4 = m ((c : Thread nD τ).loc main_arg4) :=
  calc V1 (F := Ideal) m ρ c main_arg4
    _ = W0 m ρ c (Proc.devRef .tc main_arg4) := StableHlo.after_of_forall_not_mem (b := Proc.devRef .tc main_arg4) _ _ (List.forall_iff_forall_mem.mp (by
          simp only [hostOps0, List.Forall, StableHlo.nullary_writes, StableHlo.unary_writes, StableHlo.binary_writes, StableHlo.ternary_writes, StableHlo.reshape_writes, Finset.mem_singleton]
          repeat' apply And.intro
          all_goals exact StableHlo.devRef_ne_of_ne (by decide)))
    _ = m ((c : Thread nD τ).loc main_arg4) := rfl

/-- The edge features enter region 0 as the launched array viewed as 2 partitions of 800000 rows: row e of
    partition p is edge p·800000 + e. -/
theorem entry_x (c : Dev nD) (p : Fin 2) (e : Fin 800000) (k : Fin 128) :
    (V1 (F := Ideal) m ρ c main_v9 : Vec Ideal S2x800000x128 .f32) (ix3 p e k)
      = m ((c : Thread nD τ).loc main_arg1) (ix2 (EdgeReadout.partRow p e) k) := by
  have h : (V1 (F := Ideal) m ρ c main_v9 : Vec Ideal S2x800000x128 .f32)
      = shapeCast S2x800000x128 (m ((c : Thread nD τ).loc main_arg1) : Vec Ideal S1600000x128 .f32)
          shapeCasts_S1600000x128_S2x800000x128 := by
    dsimp only [V1, W1, hostOps0]; after_results; rfl
  rw [h]
  refine shapeCast_apply (s := S1600000x128) (t := S2x800000x128) _ _ _ _ ?_
  rw [Shape.rowMajor_val_two, Shape.rowMajor_val_three]
  show (p.val * 800000 + e.val) * 128 + k.val = (p.val * 800000 + e.val) * 128 + k.val
  rfl

/-- The graph ids enter region 0 as the host's id vector viewed as 2 partitions of 800000 rows of one word. -/
theorem entry_ids (c : Dev nD) (p : Fin 2) (e : Fin 800000) :
    (V1 (F := Ideal) m ρ c main_v10 : Vec Ideal S2x800000x1 .i32) (ix3 p e 0)
      = edgeGraph (m ((c : Thread nD τ).loc main_arg0)) (m ((c : Thread nD τ).loc main_arg2)) (ix1 (EdgeReadout.partRow p e)) := by
  have h : (V1 (F := Ideal) m ρ c main_v10 : Vec Ideal S2x800000x1 .i32)
      = shapeCast S2x800000x1 (edgeGraph (m ((c : Thread nD τ).loc main_arg0)) (m ((c : Thread nD τ).loc main_arg2)))
          shapeCasts_S1600000_S2x800000x1 := by
    dsimp only [V1, W1, hostOps0]; after_results; rfl
  rw [h]
  refine shapeCast_apply (s := S1600000) (t := S2x800000x1) _ _ _ _ ?_
  rw [Shape.rowMajor_val_one, Shape.rowMajor_val_three]
  show p.val * 800000 + e.val = (p.val * 800000 + e.val) * 1 + 0
  omega

end Cert.KernelIdeal.EdgeValue

end
-- ==== Proof.Algebra.lean ====
/-
  Regrouping the sum over all edges: the 1600000 edges are 2 partitions of 125 blocks of 6400 rows, edge
  p·800000 + b·6400 + r being row r of block b of partition p.  Addition on the extended reals is commutative and
  associative, so a sum over all edges is the sum over partitions of the sum over blocks of the sum over rows.
-/
import proofs.«420980_j10582799417476_1_alg».proof.Proof.Spec
import Mathlib.Algebra.BigOperators.Fin
import Mathlib.Logic.Equiv.Fin.Basic

noncomputable section

namespace EdgeReadout

/-- A sum over a partition's rows, block by block. -/
theorem sum_blocks {M : Type*} [AddCommMonoid M] (f : Fin 800000 → M) :
    ∑ b : Fin 125, ∑ r : Fin 6400, f (blockRow b r) = ∑ e : Fin 800000, f e := by
  rw [← Fintype.sum_prod_type' (f := fun (b : Fin 125) (r : Fin 6400) => f (blockRow b r)),
    ← Equiv.sum_comp ((finProdFinEquiv (m := 125) (n := 6400)).trans (finCongr (by norm_num : 125 * 6400 = 800000))) f]
  refine Fintype.sum_congr _ _ fun x => congrArg f (Fin.ext ?_)
  simp only [blockRow, Equiv.trans_apply, finCongr_apply, Fin.coe_cast, finProdFinEquiv_apply_val]
  omega

/-- A sum over all edges, partition by partition. -/
theorem sum_parts {M : Type*} [AddCommMonoid M] (f : Fin 1600000 → M) :
    ∑ p : Fin 2, ∑ e : Fin 800000, f (partRow p e) = ∑ e : Fin 1600000, f e := by
  rw [← Fintype.sum_prod_type' (f := fun (p : Fin 2) (e : Fin 800000) => f (partRow p e)),
    ← Equiv.sum_comp ((finProdFinEquiv (m := 2) (n := 800000)).trans (finCongr (by norm_num : 2 * 800000 = 1600000))) f]
  refine Fintype.sum_congr _ _ fun x => congrArg f (Fin.ext ?_)
  simp only [partRow, Equiv.trans_apply, finCongr_apply, Fin.coe_cast, finProdFinEquiv_apply_val]
  omega

/-- The accumulator over all edges is the two partitions' accumulators added, each summed block by block. -/
theorem acc_eq_parts (eb : Fin 1600000 → BitVec 32) (x : Fin 1600000 → Fin 128 → EReal)
    (w : Fin 128 → Fin 128 → EReal) (bias : Fin 128 → EReal) (g : Fin 64) (col : Fin 256) :
    acc eb x w bias g col
      = (∑ b : Fin 125, ∑ r : Fin 6400,
            edgeTerm (eb (partRow 0 (blockRow b r))) (x (partRow 0 (blockRow b r))) w bias g col)
        + ∑ b : Fin 125, ∑ r : Fin 6400,
            edgeTerm (eb (partRow 1 (blockRow b r))) (x (partRow 1 (blockRow b r))) w bias g col := by
  unfold acc
  rw [← sum_parts (fun e => edgeTerm (eb e) (x e) w bias g col), Fin.sum_univ_two,
    ← sum_blocks (fun e => edgeTerm (eb (partRow 0 e)) (x (partRow 0 e)) w bias g col),
    ← sum_blocks (fun e => edgeTerm (eb (partRow 1 e)) (x (partRow 1 e)) w bias g col)]

end EdgeReadout

end
-- ==== Proof.KernelValue.lean ====
/-
  The kernel's result, index by index, is the specification.

  The result array is the perceptron (region 1) of the pooled rows, which the host computes from the two partitions'
  accumulator rows added; each partition's accumulator row is the sum over its 125 blocks of 6400 edge rows of the
  edges' terms (region 0), the blocks' rows being the program's edge features and the gathered graph ids at the
  edges p·800000 + b·6400 + r; and the two partitions' block-by-block sums are the sum over all edges.
-/
import proofs.«420980_j10582799417476_1_alg».proof.Proof.Names
import proofs.«420980_j10582799417476_1_alg».proof.Proof.Region0
import proofs.«420980_j10582799417476_1_alg».proof.Proof.Region1
import proofs.«420980_j10582799417476_1_alg».proof.Proof.Entry
import proofs.«420980_j10582799417476_1_alg».proof.Proof.Algebra

noncomputable section

namespace Cert.KernelIdeal.EdgeValue

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- One edge's term over region 0's entry arrays is its term over the program's arguments: row e of partition p is
    edge p·800000 + e. -/
theorem edgeTerm_entry (c : Dev nD) (p : Fin 2) (e : Fin 800000) (g : Fin 64) (col : Fin 256) :
    EdgeReadout.edgeTerm ((V1 (F := Ideal) m ρ c main_v10 : Vec Ideal S2x800000x1 .i32) (ix3 p e 0))
        (fun k => (V1 (F := Ideal) m ρ c main_v9 : Vec Ideal S2x800000x128 .f32) (ix3 p e k))
        (fun k j => (V1 (F := Ideal) m ρ c main_arg3 : Vec Ideal S128x128 .f32) (ix2 k j))
        (fun j => (V1 (F := Ideal) m ρ c main_arg4 : Vec Ideal S128 .f32) (ix1 j)) g col
      = EdgeReadout.edgeTerm
          (edgeGraph (m ((c : Thread nD τ).loc main_arg0)) (m ((c : Thread nD τ).loc main_arg2)) (ix1 (EdgeReadout.partRow p e)))
          (fun k => m ((c : Thread nD τ).loc main_arg1) (ix2 (EdgeReadout.partRow p e) k))
          (fun a b => m ((c : Thread nD τ).loc main_arg3) (ix2 a b)) (fun a => m ((c : Thread nD τ).loc main_arg4) (ix1 a)) g col := by
  have hx : (fun k => (V1 (F := Ideal) m ρ c main_v9 : Vec Ideal S2x800000x128 .f32) (ix3 p e k))
      = fun k => m ((c : Thread nD τ).loc main_arg1) (ix2 (EdgeReadout.partRow p e) k) := funext fun k => entry_x m ρ c p e k
  rw [entry_ids m ρ c p e, hx, entry_w m ρ c, entry_b m ρ c]

/-- The two partitions' accumulator rows, added, are the accumulator over all edges. -/
theorem accumulated (c : Dev nD) (g : Fin 64) (col : Fin 256) :
    partAcc (V1 m ρ) c (ix3 0 g col)
      + partAcc (V1 m ρ) c (ix3 1 g col)
    = EdgeReadout.acc (fun e : Fin 1600000 => edgeGraph (m ((c : Thread nD τ).loc main_arg0)) (m ((c : Thread nD τ).loc main_arg2)) (ix1 e))
        (fun e k => m ((c : Thread nD τ).loc main_arg1) (ix2 e k)) (fun a b => m ((c : Thread nD τ).loc main_arg3) (ix2 a b))
        (fun a => m ((c : Thread nD τ).loc main_arg4) (ix1 a)) g col := by
  rw [region0_apply (V1 m ρ) c 0 g col, region0_apply (V1 m ρ) c 1 g col, EdgeReadout.acc_eq_parts]
  exact congrArg₂ (· + ·)
    (Finset.sum_congr rfl fun b _ => Finset.sum_congr rfl fun r _ => edgeTerm_entry m ρ c 0 (EdgeReadout.blockRow b r) g col)
    (Finset.sum_congr rfl fun b _ => Finset.sum_congr rfl fun r _ => edgeTerm_entry m ρ c 1 (EdgeReadout.blockRow b r) g col)

/-- The result array, index by index. -/
theorem kernel_result (c : Dev nD) (g o : Fin 64) :
    (W4 (F := Ideal) m ρ c (Proc.devRef .tc main_v21) : Vec Ideal S64x64 .f32) (ix2 g o)
      = EdgeReadout.mlp (EdgeReadout.pooled (EdgeReadout.acc
            (fun e : Fin 1600000 => edgeGraph (m ((c : Thread nD τ).loc main_arg0)) (m ((c : Thread nD τ).loc main_arg2)) (ix1 e))
            (fun e k => m ((c : Thread nD τ).loc main_arg1) (ix2 e k)) (fun a b => m ((c : Thread nD τ).loc main_arg3) (ix2 a b))
            (fun a => m ((c : Thread nD τ).loc main_arg4) (ix1 a))))
          (fun a b => m ((c : Thread nD τ).loc main_arg5) (ix2 a b)) (fun a => m ((c : Thread nD τ).loc main_arg6) (ix1 a))
          (fun a b => m ((c : Thread nD τ).loc main_arg7) (ix2 a b)) (fun a => m ((c : Thread nD τ).loc main_arg8) (ix1 a)) g o := by
  rw [result_apply m ρ c g o]
  refine congrArg (fun a => EdgeReadout.mlp (EdgeReadout.pooled a) _ _ _ _ g o) ?_
  funext g' col
  exact accumulated m ρ c g' col

end Cert.KernelIdeal.EdgeValue

end
-- ==== Proof.RefValue.lean ====
/-
  The reference's result, index by index, is the specification.

  The reference scatters each edge's hidden row, and a one per edge, onto the row of the edge's graph: at the
  extended reals a scatter-add is the operand plus the sum of the updates that land on the element, an update
  landing where its start index, read signed, points.  An update of edge e lands on row g exactly when the id word
  of e is the word of g, so both scatters are sums over all edges weighted by the membership indicator: the
  accumulator of the specification.  The quotient by max (count, 1) is the pooled row, and the two dense layers
  are the perceptron.
-/
import proofs.«420980_j10582799417476_1_alg».proof.Proof.Spec
import proofs.«420980_j10582799417476_1_alg».proof.Proof.Gen.ReferenceIdeal.Read

noncomputable section

namespace Cert.ReferenceIdeal.EdgeValue

open Idealize.ShloMosaic Idealize.ShloMosaic.ValueIdx Cert.ReferenceIdeal Cert.ReferenceIdeal.Read

/-! ## Where an update of the feature scatter lands -/

/-- Update (e, j') reads its start index at row e of the index column. -/
theorem siIdx2 (j : S1600000x128.Idx) (c : Fin scatter_S64x128_S1600000x1_S1600000x128_1_0_0_1.scatterDimsToOperandDims.length) :
    scatter_S64x128_S1600000x1_S1600000x128_1_0_0_1.siIdx j c = ix2 (j 0) (0 : Fin 1) := by
  funext b
  match b with
  | ⟨0, _⟩ => rfl
  | ⟨1, _⟩ => exact Fin.ext (by have h : c.val < 1 := c.isLt; show c.val = 0; omega)

/-- On the graph axis the window starts at the id word of the edge, read signed. -/
theorem start2_0 (j : S1600000x128.Idx) (idx : IVec S1600000x1 32) :
    scatter_S64x128_S1600000x1_S1600000x128_1_0_0_1.start j idx 0 = (idx (ix2 (j 0) (0 : Fin 1))).toInt := by
  unfold ScatterDims.start
  rw [dif_pos (show (0 : Fin S64x128.rank) ∈ scatter_S64x128_S1600000x1_S1600000x128_1_0_0_1.scatterDimsToOperandDims by decide), siIdx2]
  rfl

/-- On the feature axis the window starts at 0. -/
theorem start2_1 (j : S1600000x128.Idx) (idx : IVec S1600000x1 32) :
    scatter_S64x128_S1600000x1_S1600000x128_1_0_0_1.start j idx 1 = 0 := by
  unfold ScatterDims.start
  rw [dif_neg (show ¬(1 : Fin S64x128.rank) ∈ scatter_S64x128_S1600000x1_S1600000x128_1_0_0_1.scatterDimsToOperandDims by decide)]

/-- The graph axis is inserted: its window coordinate is 0. -/
theorem window2_0 (j : S1600000x128.Idx) :
    scatter_S64x128_S1600000x1_S1600000x128_1_0_0_1.window j 0 = 0 := by
  unfold ScatterDims.window
  rw [dif_neg (show ¬(0 : Fin S64x128.rank) ∈ scatter_S64x128_S1600000x1_S1600000x128_1_0_0_1.sKept by decide)]

/-- The feature axis carries the update's own column. -/
theorem window2_1 (j : S1600000x128.Idx) :
    scatter_S64x128_S1600000x1_S1600000x128_1_0_0_1.window j 1 = (j 1).val := by
  unfold ScatterDims.window
  rw [dif_pos (show (1 : Fin S64x128.rank) ∈ scatter_S64x128_S1600000x1_S1600000x128_1_0_0_1.sKept by decide)]
  rfl

/-- Update (e, j') lands on (g, c) exactly when the id word of e reads g and j' = c. -/
theorem resultIdx2 (idx : IVec S1600000x1 32) (j : S1600000x128.Idx) (g : Fin 64) (c : Fin 128) :
    scatter_S64x128_S1600000x1_S1600000x128_1_0_0_1.resultIdx? j idx = some (ix2 g c)
      ↔ (idx (ix2 (j 0) (0 : Fin 1))).toInt = (g.val : Int) ∧ j 1 = c := by
  have s0 := start2_0 j idx
  have s1 := start2_1 j idx
  have w0 := window2_0 j
  have w1 := window2_1 j
  have hc := c.isLt
  have hg := g.isLt
  have hj : (j 1).val < 128 := (j 1).isLt
  unfold ScatterDims.resultIdx?
  split
  · next h =>
    have h0 := h 0
    have h1 := h 1
    rw [s0, w0] at h0
    rw [s1, w1] at h1
    rw [Option.some.injEq]
    constructor
    · intro e
      have e0 : (scatter_S64x128_S1600000x1_S1600000x128_1_0_0_1.start j idx 0 + scatter_S64x128_S1600000x1_S1600000x128_1_0_0_1.window j 0).toNat = g.val :=
        congrArg Fin.val (congrFun e 0)
      have e1 : (scatter_S64x128_S1600000x1_S1600000x128_1_0_0_1.start j idx 1 + scatter_S64x128_S1600000x1_S1600000x128_1_0_0_1.window j 1).toNat = c.val :=
        congrArg Fin.val (congrFun e 1)
      rw [s0, w0] at e0
      rw [s1, w1] at e1
      exact ⟨by omega, Fin.ext (by omega)⟩
    · rintro ⟨hT, hjc⟩
      funext a
      match a with
      | ⟨0, _⟩ =>
        exact Fin.ext (by
          show (scatter_S64x128_S1600000x1_S1600000x128_1_0_0_1.start j idx 0 + scatter_S64x128_S1600000x1_S1600000x128_1_0_0_1.window j 0).toNat = g.val
          rw [s0, w0]; omega)
      | ⟨1, _⟩ =>
        exact Fin.ext (by
          show (scatter_S64x128_S1600000x1_S1600000x128_1_0_0_1.start j idx 1 + scatter_S64x128_S1600000x1_S1600000x128_1_0_0_1.window j 1).toNat = c.val
          rw [s1, w1, ← hjc]; omega)
  · next h =>
    constructor
    · intro e; exact absurd e (by simp)
    · rintro ⟨hT, hjc⟩
      exfalso
      apply h
      intro a
      match a with
      | ⟨0, _⟩ =>
        show 0 ≤ scatter_S64x128_S1600000x1_S1600000x128_1_0_0_1.start j idx 0 + scatter_S64x128_S1600000x1_S1600000x128_1_0_0_1.window j 0
          ∧ scatter_S64x128_S1600000x1_S1600000x128_1_0_0_1.start j idx 0 + scatter_S64x128_S1600000x1_S1600000x128_1_0_0_1.window j 0 < ((64 : Nat) : Int)
        rw [s0, w0]; omega
      | ⟨1, _⟩ =>
        show 0 ≤ scatter_S64x128_S1600000x1_S1600000x128_1_0_0_1.start j idx 1 + scatter_S64x128_S1600000x1_S1600000x128_1_0_0_1.window j 1
          ∧ scatter_S64x128_S1600000x1_S1600000x128_1_0_0_1.start j idx 1 + scatter_S64x128_S1600000x1_S1600000x128_1_0_0_1.window j 1 < ((128 : Nat) : Int)
        rw [s1, w1]; omega

/-! ## Where an update of the count scatter lands -/

/-- Update e reads its start index at row e of the index column. -/
theorem siIdx1 (j : S1600000.Idx) (c : Fin scatter_S64_S1600000x1_S1600000_n_0_0_1.scatterDimsToOperandDims.length) :
    scatter_S64_S1600000x1_S1600000_n_0_0_1.siIdx j c = ix2 (j 0) (0 : Fin 1) := by
  funext b
  match b with
  | ⟨0, _⟩ => rfl
  | ⟨1, _⟩ => exact Fin.ext (by have h : c.val < 1 := c.isLt; show c.val = 0; omega)

/-- The window starts at the id word of the edge, read signed. -/
theorem start1_0 (j : S1600000.Idx) (idx : IVec S1600000x1 32) :
    scatter_S64_S1600000x1_S1600000_n_0_0_1.start j idx 0 = (idx (ix2 (j 0) (0 : Fin 1))).toInt := by
  unfold ScatterDims.start
  rw [dif_pos (show (0 : Fin S64.rank) ∈ scatter_S64_S1600000x1_S1600000_n_0_0_1.scatterDimsToOperandDims by decide), siIdx1]
  rfl

/-- The only axis is inserted: its window coordinate is 0. -/
theorem window1_0 (j : S1600000.Idx) :
    scatter_S64_S1600000x1_S1600000_n_0_0_1.window j 0 = 0 := by
  unfold ScatterDims.window
  rw [dif_neg (show ¬(0 : Fin S64.rank) ∈ scatter_S64_S1600000x1_S1600000_n_0_0_1.sKept by decide)]

/-- Update e lands on g exactly when the id word of e reads g. -/
theorem resultIdx1 (idx : IVec S1600000x1 32) (j : S1600000.Idx) (g : Fin 64) :
    scatter_S64_S1600000x1_S1600000_n_0_0_1.resultIdx? j idx = some (ix1 g)
      ↔ (idx (ix2 (j 0) (0 : Fin 1))).toInt = (g.val : Int) := by
  have s0 := start1_0 j idx
  have w0 := window1_0 j
  have hg := g.isLt
  unfold ScatterDims.resultIdx?
  split
  · next h =>
    have h0 := h 0
    rw [s0, w0] at h0
    rw [Option.some.injEq]
    constructor
    · intro e
      have e0 : (scatter_S64_S1600000x1_S1600000_n_0_0_1.start j idx 0 + scatter_S64_S1600000x1_S1600000_n_0_0_1.window j 0).toNat = g.val :=
        congrArg Fin.val (congrFun e 0)
      rw [s0, w0] at e0
      omega
    · intro hT
      funext a
      match a with
      | ⟨0, _⟩ =>
        exact Fin.ext (by
          show (scatter_S64_S1600000x1_S1600000_n_0_0_1.start j idx 0 + scatter_S64_S1600000x1_S1600000_n_0_0_1.window j 0).toNat = g.val
          rw [s0, w0]; omega)
  · next h =>
    constructor
    · intro e; exact absurd e (by simp)
    · intro hT
      exfalso
      apply h
      intro a
      match a with
      | ⟨0, _⟩ =>
        show 0 ≤ scatter_S64_S1600000x1_S1600000_n_0_0_1.start j idx 0 + scatter_S64_S1600000x1_S1600000_n_0_0_1.window j 0
          ∧ scatter_S64_S1600000x1_S1600000_n_0_0_1.start j idx 0 + scatter_S64_S1600000x1_S1600000_n_0_0_1.window j 0 < ((64 : Nat) : Int)
        rw [s0, w0]; omega

/-! ## The graph id word of an update -/

/-- A 32-bit word read signed is the graph number g exactly when it is the word of g. -/
theorem toInt_eq_iff (b : BitVec 32) (g : Fin 64) : b.toInt = (g.val : Int) ↔ b = BitVec.ofNat 32 g.val := by
  have hg := g.isLt
  have hb := b.isLt
  rw [BitVec.toInt_eq_toNat_cond]
  constructor
  · intro h
    apply BitVec.eq_of_toNat_eq
    rw [BitVec.toNat_ofNat]
    split at h <;> omega
  · intro h
    have e : b.toNat = g.val := by rw [h, BitVec.toNat_ofNat]; omega
    split <;> omega

/-! ## The two scatter-adds as sums over the edges -/

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The feature scatter at (g, c): the operand plus, over all edges, membership in g times the edge's column c. -/
theorem scatter2_apply (x : (⟨S64x128, .f32⟩ : BufTy).Contents (Elt Ideal)) (idx : (⟨S1600000x1, .i32⟩ : BufTy).Contents (Elt Ideal))
    (upd : (⟨S1600000x128, .f32⟩ : BufTy).Contents (Elt Ideal)) (g : Fin 64) (c : Fin 128) :
    Host.scatterAdd (F := Ideal) (φ := .f32) scatter_S64x128_S1600000x1_S1600000x128_1_0_0_1 x idx upd (ix2 g c)
      = x (ix2 g c) + ∑ e : Fin 1600000, EdgeReadout.ind (idx (ix2 e (0 : Fin 1))) g * upd (ix2 e c) := by
  simp only [Host.scatterAdd, Ideal.hostScatterAdd_def, Ideal.hostScatterAdd]
  refine congrArg (x (ix2 g c) + ·) ?_
  rw [Finset.sum_filter, sum_idx2]
  refine Finset.sum_congr rfl fun e _ => ?_
  refine (Finset.sum_congr rfl fun b _ => if_congr ((resultIdx2 idx (ix2 e b) g c).trans
    (and_congr (toInt_eq_iff (idx (ix2 e (0 : Fin 1))) g) (Iff.rfl : b = c ↔ b = c))) rfl rfl).trans ?_
  unfold EdgeReadout.ind
  by_cases hp : idx (ix2 e (0 : Fin 1)) = BitVec.ofNat 32 g.val
  · simp only [hp, true_and, if_true, one_mul, Finset.sum_ite_eq', Finset.mem_univ]
  · simp only [hp, false_and, if_false, Finset.sum_const_zero, zero_mul]

/-- The count scatter at g: the operand plus, over all edges, membership in g times the edge's update. -/
theorem scatter1_apply (x : (⟨S64, .f32⟩ : BufTy).Contents (Elt Ideal)) (idx : (⟨S1600000x1, .i32⟩ : BufTy).Contents (Elt Ideal))
    (upd : (⟨S1600000, .f32⟩ : BufTy).Contents (Elt Ideal)) (g : Fin 64) :
    Host.scatterAdd (F := Ideal) (φ := .f32) scatter_S64_S1600000x1_S1600000_n_0_0_1 x idx upd (ix1 g)
      = x (ix1 g) + ∑ e : Fin 1600000, EdgeReadout.ind (idx (ix2 e (0 : Fin 1))) g * upd (ix1 e) := by
  simp only [Host.scatterAdd, Ideal.hostScatterAdd_def, Ideal.hostScatterAdd]
  refine congrArg (x (ix1 g) + ·) ?_
  rw [Finset.sum_filter, sum_idx1]
  refine Finset.sum_congr rfl fun e _ => ?_
  refine (if_congr ((resultIdx1 idx (ix1 e) g).trans (toInt_eq_iff (idx (ix2 e (0 : Fin 1))) g)) rfl rfl).trans ?_
  unfold EdgeReadout.ind
  by_cases hp : idx (ix2 e (0 : Fin 1)) = BitVec.ofNat 32 g.val
  · simp only [if_pos hp, one_mul]
  · simp only [if_neg hp, zero_mul]

/-! ## The reference, value by value -/

section
variable (x0 : (⟨S2x1600000, .i32⟩ : BufTy).Contents (Elt Ideal)) (x1 : (⟨S1600000x128, .f32⟩ : BufTy).Contents (Elt Ideal))
  (x2 : (⟨S50000, .i32⟩ : BufTy).Contents (Elt Ideal)) (x3 : (⟨S128x128, .f32⟩ : BufTy).Contents (Elt Ideal))
  (x4 : (⟨S128, .f32⟩ : BufTy).Contents (Elt Ideal))

/-- The hidden feature j of edge e: relu (x e · W1 + b1) at column j. -/
theorem v4_at (e : Fin 1600000) (j : Fin 128) :
    val_main_v4 (F := Ideal) x1 x3 x4 (ix2 e j)
      = EdgeReadout.hid (fun k => x1 (ix2 e k)) (fun a b => x3 (ix2 a b)) (fun a => x4 (ix1 a)) j := by
  have el : ∀ k : Fin 128, lidx_main_v0 (ix2 e j) k = ix2 e k := fun k => funext fun a => by
    match a with
    | ⟨0, _⟩ => rfl
    | ⟨1, _⟩ => rfl
  have er : ∀ k : Fin 128, ridx_main_v0 (ix2 e j) k = ix2 k j := fun k => funext fun a => by
    match a with
    | ⟨0, _⟩ => rfl
    | ⟨1, _⟩ => rfl
  have e2 : idx_main_v1 (idx_main_v2 (ix2 e j)) = ix1 j := funext fun a => by
    match a with
    | ⟨0, _⟩ => rfl
  rw [val_main_v4_apply, val_main_v3_apply, val_main_v0_apply, val_main_v2_apply, val_main_v1_apply,
    val_main_call0_v0_apply, val_main_call0_cst_apply, e2]
  simp only [el, er, Ideal.maximumf_def, Ideal.addf_def, Ideal.ofBits_def, EdgeReadout.zero_f32]
  rfl

/-- The feature sums: column j of graph g's accumulator row. -/
theorem v16_at (g : Fin 64) (j : Fin 128) :
    val_main_v16 (F := Ideal) x0 x1 x2 x3 x4 (ix2 g j)
      = EdgeReadout.acc (fun e : Fin 1600000 => val_main_v13 (F := Ideal) x0 x2 (ix1 e)) (fun e k => x1 (ix2 e k))
          (fun a b => x3 (ix2 a b)) (fun a => x4 (ix1 a)) g ⟨j.val, by have := j.isLt; omega⟩ := by
  have e15 : ∀ e : Fin 1600000, idx_main_v15 (ix2 e (0 : Fin 1)) = ix1 e := fun e => funext fun a => by
    match a with
    | ⟨0, _⟩ => rfl
  unfold val_main_v16
  rw [scatter2_apply, val_main_v14_apply, val_main_cst_apply, Ideal.ofBits_def, EdgeReadout.zero_f32, zero_add]
  unfold EdgeReadout.acc EdgeReadout.edgeTerm
  refine Finset.sum_congr rfl fun e _ => ?_
  rw [val_main_v15_apply, e15, v4_at, dif_pos j.isLt]

/-- The edge counts: column 128 of graph g's accumulator row. -/
theorem v20_at (g : Fin 64) :
    val_main_v20 (F := Ideal) x0 x2 (ix1 g)
      = EdgeReadout.acc (fun e : Fin 1600000 => val_main_v13 (F := Ideal) x0 x2 (ix1 e)) (fun e k => x1 (ix2 e k))
          (fun a b => x3 (ix2 a b)) (fun a => x4 (ix1 a)) g ⟨128, by omega⟩ := by
  have e19 : ∀ e : Fin 1600000, idx_main_v19 (ix2 e (0 : Fin 1)) = ix1 e := fun e => funext fun a => by
    match a with
    | ⟨0, _⟩ => rfl
  unfold val_main_v20
  rw [scatter1_apply, val_main_v18_apply, val_main_cst_2_apply, Ideal.ofBits_def, EdgeReadout.zero_f32, zero_add]
  unfold EdgeReadout.acc EdgeReadout.edgeTerm
  refine Finset.sum_congr rfl fun e _ => ?_
  rw [val_main_v19_apply, e19, val_main_v17_apply, val_main_cst_1_apply, Ideal.ofBits_def, EdgeReadout.one_f32,
    dif_neg (by decide)]

/-- The pooled feature j of graph g: its feature sum over max (its edge count, 1). -/
theorem v25_at (g : Fin 64) (j : Fin 128) :
    val_main_v25 (F := Ideal) x0 x1 x2 x3 x4 (ix2 g j)
      = EdgeReadout.pooled (EdgeReadout.acc (fun e : Fin 1600000 => val_main_v13 (F := Ideal) x0 x2 (ix1 e)) (fun e k => x1 (ix2 e k)) (fun a b => x3 (ix2 a b)) (fun a => x4 (ix1 a))) g j := by
  have e23 : idx_main_v23 (idx_main_v24 (ix2 g j)) = ix1 g := funext fun a => by
    match a with
    | ⟨0, _⟩ => rfl
  rw [val_main_v25_apply, v16_at, val_main_v24_apply, val_main_v23_apply, e23, val_main_v22_apply,
    v20_at x0 x1 x2 x3 x4, val_main_v21_apply, val_main_cst_3_apply, Ideal.hostDivf_def, Ideal.maximumf_def,
    Ideal.ofBits_def, EdgeReadout.one_f32]
  rfl

end

/-- The reference's result at (g, o) is the perceptron of the pooled rows of the edges' accumulator. -/
theorem ref_apply (x0 : (⟨S2x1600000, .i32⟩ : BufTy).Contents (Elt Ideal)) (x1 : (⟨S1600000x128, .f32⟩ : BufTy).Contents (Elt Ideal)) (x2 : (⟨S50000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x64, .f32⟩ : BufTy).Contents (Elt Ideal)) (x8 : (⟨S64, .f32⟩ : BufTy).Contents (Elt Ideal)) (g o : Fin 64) :
    val_main_v34 (F := Ideal) x0 x1 x2 x3 x4 x5 x6 x7 x8 (ix2 g o)
      = EdgeReadout.mlp (EdgeReadout.pooled (EdgeReadout.acc (fun e : Fin 1600000 => val_main_v13 (F := Ideal) x0 x2 (ix1 e)) (fun e k => x1 (ix2 e k)) (fun a b => x3 (ix2 a b)) (fun a => x4 (ix1 a)))) (fun a b => x5 (ix2 a b)) (fun a => x6 (ix1 a)) (fun a b => x7 (ix2 a b)) (fun a => x8 (ix1 a)) g o := by
  have el31 : ∀ k : Fin 128, lidx_main_v31 (ix2 g o) k = ix2 g k := fun k => funext fun a => by
    match a with
    | ⟨0, _⟩ => rfl
    | ⟨1, _⟩ => rfl
  have er31 : ∀ k : Fin 128, ridx_main_v31 (ix2 g o) k = ix2 k o := fun k => funext fun a => by
    match a with
    | ⟨0, _⟩ => rfl
    | ⟨1, _⟩ => rfl
  have e33 : idx_main_v32 (idx_main_v33 (ix2 g o)) = ix1 o := funext fun a => by
    match a with
    | ⟨0, _⟩ => rfl
  have el26 : ∀ k k' : Fin 128, lidx_main_v26 (ix2 g k) k' = ix2 g k' := fun k k' => funext fun a => by
    match a with
    | ⟨0, _⟩ => rfl
    | ⟨1, _⟩ => rfl
  have er26 : ∀ k k' : Fin 128, ridx_main_v26 (ix2 g k) k' = ix2 k' k := fun k k' => funext fun a => by
    match a with
    | ⟨0, _⟩ => rfl
    | ⟨1, _⟩ => rfl
  have e28 : ∀ k : Fin 128, idx_main_v27 (idx_main_v28 (ix2 g k)) = ix1 k := fun k => funext fun a => by
    match a with
    | ⟨0, _⟩ => rfl
  rw [val_main_v34_apply, val_main_v31_apply, val_main_v33_apply, val_main_v32_apply, e33, Ideal.addf_def]
  unfold EdgeReadout.mlp
  refine congrArg (· + x8 (ix1 o)) ?_
  refine Finset.sum_congr rfl fun k _ => ?_
  rw [el31, er31, val_main_v30_apply, val_main_v29_apply, val_main_v26_apply, val_main_v28_apply, val_main_v27_apply,
    e28, val_main_call1_v0_apply, val_main_call1_cst_apply, Ideal.ofBits_def, EdgeReadout.zero_f32,
    Ideal.maximumf_def, Ideal.addf_def]
  refine congrArg (fun t => max (t + x6 (ix1 k)) 0 * x7 (ix2 k o)) ?_
  refine Finset.sum_congr rfl fun k' _ => ?_
  rw [el26, er26, v25_at x0 x1 x2 x3 x4]

end Cert.ReferenceIdeal.EdgeValue

end
-- ==== Proof.lean ====
/-
  Mean readout of edge features per graph, followed by a two-layer perceptron: the kernel against its jnp reference,
  over the extended reals.

  Both programs compute, for graph g and output o,
      mlp (pooled (acc eb x W1 b1)) W2 b2 W3 b3 g o
  (Proof/Spec.lean): every edge e has the hidden row relu (x e · W1 + b1) and the graph id eb e = batch[edge_index[0, e]]
  (one host gather, the same term in both programs); acc g collects over the edges with id g the hidden features (columns
  < 128) and the number of such edges (columns ≥ 128); pooled divides the feature sums by max (count, 1); mlp is
  relu (· W2 + b2) · W3 + b3.

  The reference forms acc by two scatter-adds, which at the ideal instance are exact sums over the updates that land on
  an element, an id outside 0..63 landing nowhere.  The kernel forms it in a 2 × 125 grid: at each point a block of 6400
  edge rows adds onehotᵀ · hidden and onehotᵀ · ones to the partition's accumulator block, which is zeroed at the
  partition's first point and written back at its last; the host adds the two partitions.  A one-hot entry is 1 exactly
  when the id word is g, so both are the same sum over all edges, regrouped; addition of extended reals is commutative
  and associative, 0 · h = 0 and 1 · h = h, and no finiteness of the inputs is needed.  The changes of float format in
  the kernel are the identity at the ideal instance.

  The three frames: the two kernel programs' are the generated frame certificates; the reference's is its generated run
  with the result dropped.  The ideal pass rewrote nothing, so `preserves` is `True`.
-/
import proofs.«420980_j10582799417476_1_alg».proof.Defs
import proofs.«420980_j10582799417476_1_alg».proof.Proof.Gen.Kernel
import proofs.«420980_j10582799417476_1_alg».proof.Proof.Gen.Kernel.Skeleton
import proofs.«420980_j10582799417476_1_alg».proof.Proof.Gen.Kernel.Launch
import proofs.«420980_j10582799417476_1_alg».proof.Proof.Gen.Kernel.Points
import proofs.«420980_j10582799417476_1_alg».proof.Proof.Gen.Kernel.Frame
import proofs.«420980_j10582799417476_1_alg».proof.Proof.Gen.KernelIdeal
import proofs.«420980_j10582799417476_1_alg».proof.Proof.Gen.KernelIdeal.Skeleton
import proofs.«420980_j10582799417476_1_alg».proof.Proof.Gen.KernelIdeal.Launch
import proofs.«420980_j10582799417476_1_alg».proof.Proof.Gen.KernelIdeal.Points
import proofs.«420980_j10582799417476_1_alg».proof.Proof.Gen.KernelIdeal.Frame
import proofs.«420980_j10582799417476_1_alg».proof.Proof.Gen.ReferenceIdeal
import proofs.«420980_j10582799417476_1_alg».proof.Proof.Gen.Pre_finite_inputs
import proofs.«420980_j10582799417476_1_alg».proof.Proof.Gen.ReferenceIdeal.Run
import proofs.«420980_j10582799417476_1_alg».proof.Proof.Gen.ReferenceIdeal.Read
import proofs.«420980_j10582799417476_1_alg».proof.Proof.RunValue
import proofs.«420980_j10582799417476_1_alg».proof.Proof.KernelValue
import proofs.«420980_j10582799417476_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The gathered graph ids are one function of the two integer arguments in both programs: the same host operations in
    the same order. -/
theorem edgeGraph_eq (x0 : Vec Ideal Cert.KernelIdeal.S2x1600000 .i32) (x2 : Vec Ideal Cert.KernelIdeal.S50000 .i32) :
    Cert.KernelIdeal.EdgeValue.edgeGraph x0 x2 = Cert.ReferenceIdeal.Read.val_main_v13 (F := Ideal) x0 x2 := rfl

/-- From memories that agree on the nine arguments both runs end, the kernel's result array and the reference's at the
    same function of the arguments, index by index. -/
theorem algebraic : Cert.algebraic_KernelIdeal_ReferenceIdeal := by
  intro m ρ m' ρ' _ hagree
  refine ⟨fun c => Cert.KernelIdeal.Gen.W4 (F := Ideal) m ρ c (Proc.devRef .tc Cert.KernelIdeal.main_v21),
    Cert.KernelIdeal.EdgeValue.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v34_eq, h0, h1, h2, h3, h4, h5, h6, h7, h8]
  funext i
  obtain ⟨g, o, rfl⟩ : ∃ (g o : Fin 64), i = ValueIdx.ix2 g o := ⟨i 0, i 1, ValueIdx.eq_ix2 i⟩
  rw [Cert.ReferenceIdeal.EdgeValue.ref_apply]
  exact (Cert.KernelIdeal.EdgeValue.kernel_result m ρ c g o).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
